-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  IdealRules.named_const.Statement Cert.KernelIdeal.κ "neg_big" .f32 0xFF333332#32 ⊥

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v101)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v101) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v99) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S256x40 : Shape := ⟨2, ![256, 40]⟩
abbrev S40 : Shape := ⟨1, ![40]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S256x40 : S_.BroadcastsInDim S256x40 (![] : Fin 0 → Fin S256x40.rank)
  reducesTo_S256x40_S_d0_1 : S256x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg5 : FVec F S128 .f32) (main_arg6 : FVec F S256x40 .f32) (main_arg7 : FVec F S40 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S256x40 .f32 := Host.absf main_arg6
  let main_cst_8 : FVec F S_ .f32 := constant S_ .f32 0x7F800000#32
  let main_v25 : FVec F S256x40 .f32 := broadcastInDim S256x40 ![] bcast_S_S256x40 main_cst_8
  let main_v26 : IVec S256x40 1 := cmpf .olt main_v24 main_v25
  let main_c_9 : IVec S_ 1 := constantI S_ 1 1#1
  let main_v27 : IVec S_ 1 := (fun x v => Host.reduce IntOp.andi x v reducesTo_S256x40_S_d0_1 h_S_) main_v26 main_c_9
  let main_v28 : IVec S_ 1 := andi main_v23 main_v27
  let main_v29 : FVec F S40 .f32 := Host.absf main_arg7
  let main_cst_10 : FVec F S_ .f32 := constant S_ .f32 0x7F800000#32
  let main_v30 : FVec F S40 .f32 := broadcastInDim S40 ![] bcast_S_S40 main_cst_10
  let main_v31 : IVec S40 1 := cmpf .olt main_v29 main_v30
  let main_c_11 : IVec S_ 1 := constantI S_ 1 1#1
  let main_v32 : IVec S_ 1 := (fun x v => Host.reduce IntOp.andi x v reducesTo_S40_S_d0 h_S_) main_v31 main_c_11
  let main_v33 : IVec S_ 1 := andi main_v28 main_v32
  main_v33

def fn {F : FTy → Type} [FloatOps F] (main_arg0 : FVec F S100000x128 .f32) (main_arg1 : IVec S2x1600000 32) (main_arg2 : FVec F S128x128 .f32) (main_arg3 : FVec F S128 .f32) (main_arg4 : FVec F S128x128 .f32) (main_arg5 : FVec F S128 .f32) (main_arg6 : FVec F S256x40 .f32) (main_arg7 : FVec F S40 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S256x40 : Shape := ⟨2, ![256, 40]⟩
abbrev S40 : Shape := ⟨1, ![40]⟩
abbrev S1x1600000 : Shape := ⟨2, ![1, 1600000]⟩
abbrev S1600000 : Shape := ⟨1, ![1600000]⟩
abbrev S5000x128 : Shape := ⟨2, ![5000, 128]⟩
abbrev S_ : Shape := ⟨0, ![]⟩
abbrev S100000 : Shape := ⟨1, ![100000]⟩
abbrev S1600000x1 : Shape := ⟨2, ![1600000, 1]⟩
abbrev S1600000x128 : Shape := ⟨2, ![1600000, 128]⟩
abbrev S100000x1 : Shape := ⟨2, ![100000, 1]⟩
abbrev S1x128 : Shape := ⟨2, ![1, 128]⟩
abbrev S128x40 : Shape := ⟨2, ![128, 40]⟩
abbrev S1x40 : Shape := ⟨2, ![1, 40]⟩
abbrev S5000 : Shape := ⟨1, ![5000]⟩
abbrev S5000x1 : Shape := ⟨2, ![5000, 1]⟩
abbrev S100000x40 : Shape := ⟨2, ![100000, 40]⟩

abbrev nBuf : Space → Nat
  | .hbm => 140
  | .vmem => 19
  | .smem => 0
  | _ => 0

abbrev hbmTy0_0 (i : Nat) : BufTy := match i % 128 with
  | 0 => ⟨S100000x128, .f32⟩
  | 1 => ⟨S2x1600000, .i32⟩
  | 2 => ⟨S128x128, .f32⟩
  | 3 => ⟨S128, .f32⟩
  | 4 => ⟨S128x128, .f32⟩
  | 5 => ⟨S128, .f32⟩
  | 6 => ⟨S256x40, .f32⟩
  | 7 => ⟨S40, .f32⟩
  | 8 => ⟨S1x1600000, .i32⟩
  | 9 => ⟨S1600000, .i32⟩
  | 10 => ⟨S1x1600000, .i32⟩
  | 11 => ⟨S1600000, .i32⟩
  | 12 => ⟨S100000x128, .f32⟩
  | 13 => ⟨S_, .f32⟩
  | 14 => ⟨S1600000, .f32⟩
  | 15 => ⟨S_, .f32⟩
  | 16 => ⟨S100000, .f32⟩
  | 17 => ⟨S1600000x1, .i32⟩
  | 18 => ⟨S100000, .f32⟩
  | 19 => ⟨S_, .f32⟩
  | 20 => ⟨S100000, .f32⟩
  | 21 => ⟨S100000, .f32⟩
  | 22 => ⟨S100000, .f32⟩
  | 23 => ⟨S_, .i32⟩
  | 24 => ⟨S1600000, .i32⟩
  | 25 => ⟨S1600000, .i1⟩
  | 26 => ⟨S_, .i32⟩
  | 27 => ⟨S1600000, .i32⟩
  | 28 => ⟨S1600000, .i32⟩
  | 29 => ⟨S1600000, .i32⟩
  | 30 => ⟨S1600000x1, .i32⟩
  | 31 => ⟨S1600000, .f32⟩
  | 32 => ⟨S_, .i32⟩
  | 33 => ⟨S1600000, .i32⟩
  | 34 => ⟨S1600000, .i1⟩
  | 35 => ⟨S_, .i32⟩
  | 36 => ⟨S1600000, .i32⟩
  | 37 => ⟨S1600000, .i32⟩
  | 38 => ⟨S1600000, .i32⟩
  | 39 => ⟨S1600000x1, .i32⟩
  | 40 => ⟨S1600000, .f32⟩
  | 41 => ⟨S1600000, .f32⟩
  | 42 => ⟨S_, .i32⟩
  | 43 => ⟨S1600000, .i32⟩
  | 44 => ⟨S1600000, .i1⟩
  | 45 => ⟨S_, .i32⟩
  | 46 => ⟨S1600000, .i32⟩
  | 47 => ⟨S1600000, .i32⟩
  | 48 => ⟨S1600000, .i32⟩
  | 49 => ⟨S1600000x1, .i32⟩
  | 50 => ⟨S1600000x128, .f32⟩
  | 51 => ⟨S1600000x1, .f32⟩
  | 52 => ⟨S1600000x128, .f32⟩
  | 53 => ⟨S1600000x128, .f32⟩
  | 54 => ⟨S_, .f32⟩
  | 55 => ⟨S100000x128, .f32⟩
  | 56 => ⟨S1600000x1, .i32⟩
  | 57 => ⟨S100000x128, .f32⟩
  | 58 => ⟨S100000, .f32⟩
  | 59 => ⟨S100000x1, .f32⟩
  | 60 => ⟨S100000x128, .f32⟩
  | 61 => ⟨S100000x128, .f32⟩
  | 62 => ⟨S100000x128, .f32⟩
  | 63 => ⟨S1x128, .f32⟩
  | 64 => ⟨S100000x128, .f32⟩
  | 65 => ⟨S100000x128, .f32⟩
  | 66 => ⟨S_, .f32⟩
  | 67 => ⟨S100000x128, .f32⟩
  | 68 => ⟨S100000x128, .f32⟩
  | 69 => ⟨S100000x128, .f32⟩
  | 70 => ⟨S_, .f32⟩
  | 71 => ⟨S1600000, .f32⟩
  | 72 => ⟨S_, .f32⟩
  | 73 => ⟨S100000, .f32⟩
  | 74 => ⟨S1600000x1, .i32⟩
  | 75 => ⟨S100000, .f32⟩
  | 76 => ⟨S_, .f32⟩
  | 77 => ⟨S100000, .f32⟩
  | 78 => ⟨S100000, .f32⟩
  | 79 => ⟨S100000, .f32⟩
  | 80 => ⟨S_, .i32⟩
  | 81 => ⟨S1600000, .i32⟩
  | 82 => ⟨S1600000, .i1⟩
  | 83 => ⟨S_, .i32⟩
  | 84 => ⟨S1600000, .i32⟩
  | 85 => ⟨S1600000, .i32⟩
  | 86 => ⟨S1600000, .i32⟩
  | 87 => ⟨S1600000x1, .i32⟩
  | 88 => ⟨S1600000, .f32⟩
  | 89 => ⟨S_, .i32⟩
  | 90 => ⟨S1600000, .i32⟩
  | 91 => ⟨S1600000, .i1⟩
  | 92 => ⟨S_, .i32⟩
  | 93 => ⟨S1600000, .i32⟩
  | 94 => ⟨S1600000, .i32⟩
  | 95 => ⟨S1600000, .i32⟩
  | 96 => ⟨S1600000x1, .i32⟩
  | 97 => ⟨S1600000, .f32⟩
  | 98 => ⟨S1600000, .f32⟩
  | 99 => ⟨S_, .i32⟩
  | 100 => ⟨S1600000, .i32⟩
  | 101 => ⟨S1600000, .i1⟩
  | 102 => ⟨S_, .i32⟩
  | 103 => ⟨S1600000, .i32⟩
  | 104 => ⟨S1600000, .i32⟩
  | 105 => ⟨S1600000, .i32⟩
  | 106 => ⟨S1600000x1, .i32⟩
  | 107 => ⟨S1600000x128, .f32⟩
  | 108 => ⟨S1600000x1, .f32⟩
  | 109 => ⟨S1600000x128, .f32⟩
  | 110 => ⟨S1600000x128, .f32⟩
  | 111 => ⟨S_, .f32⟩
  | 112 => ⟨S100000x128, .f32⟩
  | 113 => ⟨S1600000x1, .i32⟩
  | 114 => ⟨S100000x128, .f32⟩
  | 115 => ⟨S100000, .f32⟩
  | 116 => ⟨S100000x1, .f32⟩
  | 117 => ⟨S100000x128, .f32⟩
  | 118 => ⟨S100000x128, .f32⟩
  | 119 => ⟨S100000x128, .f32⟩
  | 120 => ⟨S1x128, .f32⟩
  | 121 => ⟨S100000x128, .f32⟩
  | 122 => ⟨S100000x128, .f32⟩
  | 123 => ⟨S_, .f32⟩
  | 124 => ⟨S100000x128, .f32⟩
  | 125 => ⟨S100000x128, .f32⟩
  | 126 => ⟨S128x40, .f32⟩
  | 127 => ⟨S_, .i32⟩
  | _ => ⟨S100000x128, .f32⟩

abbrev hbmTy0_1 (i : Nat) : BufTy := match i % 128 with
  | 0 => ⟨S_, .f32⟩
  | 1 => ⟨S128x128, .f32⟩
  | 2 => ⟨S128x40, .f32⟩
  | 3 => ⟨S_, .i32⟩
  | 4 => ⟨S_, .f32⟩
  | 5 => ⟨S128x128, .f32⟩
  | 6 => ⟨S1x40, .f32⟩
  | 7 => ⟨S_, .i32⟩
  | 8 => ⟨S_, .f32⟩
  | 9 => ⟨S1x128, .f32⟩
  | 10 => ⟨S100000x128, .f32⟩
  | 11 => ⟨S100000x40, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S128x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S128x128, .f32⟩
  | .local _ .vmem, ⟨15, _⟩ => ⟨S128x128, .f32⟩
  | .local _ .vmem, ⟨16, _⟩ => ⟨S1x128, .f32⟩
  | .local _ .vmem, ⟨17, _⟩ => ⟨S5000x128, .f32⟩
  | .local _ .vmem, ⟨18, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_1 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_c : Ref sig .tc := ⟨.hbm, 23, rfl⟩
abbrev main_v12 : Ref sig .tc := ⟨.hbm, 24, rfl⟩
abbrev main_v13 : Ref sig .tc := ⟨.hbm, 25, rfl⟩
abbrev main_c_2 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_c_3 : Ref sig .tc := ⟨.hbm, 32, rfl⟩
abbrev main_v19 : Ref sig .tc := ⟨.hbm, 33, rfl⟩
abbrev main_v20 : Ref sig .tc := ⟨.hbm, 34, rfl⟩
abbrev main_c_4 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_c_5 : Ref sig .tc := ⟨.hbm, 42, rfl⟩
abbrev main_v27 : Ref sig .tc := ⟨.hbm, 43, rfl⟩
abbrev main_v28 : Ref sig .tc := ⟨.hbm, 44, rfl⟩
abbrev main_c_6 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_7 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_call0_cst : Ref sig .tc := ⟨.hbm, 66, rfl⟩
abbrev main_call0_v0 : Ref sig .tc := ⟨.hbm, 67, rfl⟩
abbrev main_v48 : Ref sig .tc := ⟨.hbm, 68, rfl⟩
abbrev main_v49 : Ref sig .tc := ⟨.hbm, 69, rfl⟩
abbrev main_cst_8 : Ref sig .tc := ⟨.hbm, 70, rfl⟩
abbrev main_v50 : Ref sig .tc := ⟨.hbm, 71, rfl⟩
abbrev main_cst_9 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_cst_10 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_c_11 : Ref sig .tc := ⟨.hbm, 80, rfl⟩
abbrev main_v57 : Ref sig .tc := ⟨.hbm, 81, rfl⟩
abbrev main_v58 : Ref sig .tc := ⟨.hbm, 82, rfl⟩
abbrev main_c_12 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_c_13 : Ref sig .tc := ⟨.hbm, 89, rfl⟩
abbrev main_v64 : Ref sig .tc := ⟨.hbm, 90, rfl⟩
abbrev main_v65 : Ref sig .tc := ⟨.hbm, 91, rfl⟩
abbrev main_c_14 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_c_15 : Ref sig .tc := ⟨.hbm, 99, rfl⟩
abbrev main_v72 : Ref sig .tc := ⟨.hbm, 100, rfl⟩
abbrev main_v73 : Ref sig .tc := ⟨.hbm, 101, rfl⟩
abbrev main_c_16 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_cst_17 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_call1_cst : Ref sig .tc := ⟨.hbm, 123, rfl⟩
abbrev main_call1_v0 : Ref sig .tc := ⟨.hbm, 124, rfl⟩
abbrev main_v93 : Ref sig .tc := ⟨.hbm, 125, rfl⟩
abbrev main_v94 : Ref sig .tc := ⟨.hbm, 126, rfl⟩
abbrev main_c_18 : Ref sig .tc := ⟨.hbm, 127, rfl⟩
abbrev main_call2_v0 : Ref sig .tc := ⟨.hbm, 128, rfl⟩
abbrev main_v95 : Ref sig .tc := ⟨.hbm, 129, rfl⟩
abbrev main_v96 : Ref sig .tc := ⟨.hbm, 130, rfl⟩
abbrev main_c_19 : Ref sig .tc := ⟨.hbm, 131, rfl⟩
abbrev main_call3_v0 : Ref sig .tc := ⟨.hbm, 132, rfl⟩
abbrev main_v97 : Ref sig .tc := ⟨.hbm, 133, rfl⟩
abbrev main_v98 : Ref sig .tc := ⟨.hbm, 134, rfl⟩
abbrev main_c_20 : Ref sig .tc := ⟨.hbm, 135, rfl⟩
abbrev main_call4_v0 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg1_1 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg4_0 : Ref sig .tc := ⟨.vmem, 16, rfl⟩
abbrev cc2_stg5_0 : Ref sig .tc := ⟨.vmem, 17, rfl⟩
abbrev cc2_stg5_1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem1_1 : DmaSem sig := 13
abbrev cc2_sem2_0 : DmaSem sig := 14
abbrev cc2_sem3_0 : DmaSem sig := 15
abbrev cc2_sem4_0 : DmaSem sig := 16
abbrev cc2_sem5_0 : DmaSem sig := 17
abbrev cc2_sem5_1 : DmaSem sig := 18

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  shapeCasts_S5000x128_S5000x128 : S5000x128.ShapeCasts S5000x128
  slices_S256x40_S128x40_0_0 : S256x40.Slices ![0, 0] S128x40
  pads_S128x40_S128x128_000_0880 : S128x40.Pads (![0, 0] : Fin 2 → Nat) ![0, 88] ![0, 0] S128x128
  h_S_ : 0 < S_.numel
  slices_S256x40_S128x40_128_0 : S256x40.Slices ![128, 0] S128x40
  shapeCasts_S40_S1x40 : S40.ShapeCasts S1x40
  pads_S1x40_S1x128_000_0880 : S1x40.Pads (![0, 0] : Fin 2 → Nat) ![0, 88] ![0, 0] S1x128
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  iota_S5000x128_d1_w32 : S5000x128.Iotas .tc 32 [1]
  reduces_S5000x128_S5000 : S5000x128.Reduces [1] S5000
  shapeCasts_S5000_S5000x1 : S5000.ShapeCasts S5000x1
  broadcasts_S5000x1_S5000x128 : S5000x1.Broadcasts S5000x128
  slices_S100000x128_S100000x40_0_0 : S100000x128.Slices ![0, 0] S100000x40
  dot_S5000x128_S128x128_S5000x128_1_0_0_1_n_n_wf : DotDims.WF S5000x128 S128x128 S5000x128 [1] [0] [0] [1] [] []
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S100000x128.size a
  hwx1_2 : ∀ i : grid1.Coords, EltTy.bits .f32 = 32 ∨ (Rect.block (s := S100000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S100000x128.size a
  hwx2_1 : ∀ i : grid2.Coords, EltTy.bits .f32 = 32 ∨ (Rect.block (s := S100000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x128.size a ≤ S100000x128.size a
  hwx2_5 : ∀ i : grid2.Coords, EltTy.bits .f32 = 32 ∨ (Rect.block (s := S100000x128) S5000x128.size (cc2_transform_5 i) (hinb2_5 i)).WholeWords (EltTy.packing .f32)

variable [Facts₀]

def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v48) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v49) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v48) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v93) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v95) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v97) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v99) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v100) S5000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S256x40 : Shape := ⟨2, ![256, 40]⟩
abbrev S40 : Shape := ⟨1, ![40]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S1600000x128 : Shape := ⟨2, ![1600000, 128]⟩
abbrev S100000x1 : Shape := ⟨2, ![100000, 1]⟩
abbrev S1x128 : Shape := ⟨2, ![1, 128]⟩
abbrev S100000x256 : Shape := ⟨2, ![100000, 256]⟩
abbrev S100000x40 : Shape := ⟨2, ![100000, 40]⟩
abbrev S1x40 : Shape := ⟨2, ![1, 40]⟩

abbrev nBuf : Space → Nat
  | .hbm => 146
  | .vmem => 0
  | .smem => 0
  | _ => 0

abbrev hbmTy0_0 (i : Nat) : BufTy := match i % 128 with
  | 0 => ⟨S100000x128, .f32⟩
  | 1 => ⟨S2x1600000, .i32⟩
  | 2 => ⟨S128x128, .f32⟩
  | 3 => ⟨S128, .f32⟩
  | 4 => ⟨S128x128, .f32⟩
  | 5 => ⟨S128, .f32⟩
  | 6 => ⟨S256x40, .f32⟩
  | 7 => ⟨S40, .f32⟩
  | 8 => ⟨S1x1600000, .i32⟩
  | 9 => ⟨S1600000, .i32⟩
  | 10 => ⟨S1x1600000, .i32⟩
  | 11 => ⟨S1600000, .i32⟩
  | 12 => ⟨S100000x128, .f32⟩
  | 13 => ⟨S_, .f32⟩
  | 14 => ⟨S1600000, .f32⟩
  | 15 => ⟨S_, .f32⟩
  | 16 => ⟨S100000, .f32⟩
  | 17 => ⟨S1600000x1, .i32⟩
  | 18 => ⟨S100000, .f32⟩
  | 19 => ⟨S_, .f32⟩
  | 20 => ⟨S100000, .f32⟩
  | 21 => ⟨S100000, .f32⟩
  | 22 => ⟨S100000, .f32⟩
  | 23 => ⟨S_, .i32⟩
  | 24 => ⟨S1600000, .i32⟩
  | 25 => ⟨S1600000, .i1⟩
  | 26 => ⟨S_, .i32⟩
  | 27 => ⟨S1600000, .i32⟩
  | 28 => ⟨S1600000, .i32⟩
  | 29 => ⟨S1600000, .i32⟩
  | 30 => ⟨S1600000x1, .i32⟩
  | 31 => ⟨S1600000, .f32⟩
  | 32 => ⟨S_, .i32⟩
  | 33 => ⟨S1600000, .i32⟩
  | 34 => ⟨S1600000, .i1⟩
  | 35 => ⟨S_, .i32⟩
  | 36 => ⟨S1600000, .i32⟩
  | 37 => ⟨S1600000, .i32⟩
  | 38 => ⟨S1600000, .i32⟩
  | 39 => ⟨S1600000x1, .i32⟩
  | 40 => ⟨S1600000, .f32⟩
  | 41 => ⟨S1600000, .f32⟩
  | 42 => ⟨S_, .i32⟩
  | 43 => ⟨S1600000, .i32⟩
  | 44 => ⟨S1600000, .i1⟩
  | 45 => ⟨S_, .i32⟩
  | 46 => ⟨S1600000, .i32⟩
  | 47 => ⟨S1600000, .i32⟩
  | 48 => ⟨S1600000, .i32⟩
  | 49 => ⟨S1600000x1, .i32⟩
  | 50 => ⟨S1600000x128, .f32⟩
  | 51 => ⟨S1600000x1, .f32⟩
  | 52 => ⟨S1600000x128, .f32⟩
  | 53 => ⟨S1600000x128, .f32⟩
  | 54 => ⟨S_, .f32⟩
  | 55 => ⟨S100000x128, .f32⟩
  | 56 => ⟨S1600000x1, .i32⟩
  | 57 => ⟨S100000x128, .f32⟩
  | 58 => ⟨S100000, .f32⟩
  | 59 => ⟨S100000x1, .f32⟩
  | 60 => ⟨S100000x128, .f32⟩
  | 61 => ⟨S100000x128, .f32⟩
  | 62 => ⟨S100000x128, .f32⟩
  | 63 => ⟨S1x128, .f32⟩
  | 64 => ⟨S100000x128, .f32⟩
  | 65 => ⟨S100000x128, .f32⟩
  | 66 => ⟨S_, .f32⟩
  | 67 => ⟨S100000x128, .f32⟩
  | 68 => ⟨S100000x128, .f32⟩
  | 69 => ⟨S100000x128, .f32⟩
  | 70 => ⟨S_, .f32⟩
  | 71 => ⟨S1600000, .f32⟩
  | 72 => ⟨S_, .f32⟩
  | 73 => ⟨S100000, .f32⟩
  | 74 => ⟨S1600000x1, .i32⟩
  | 75 => ⟨S100000, .f32⟩
  | 76 => ⟨S_, .f32⟩
  | 77 => ⟨S100000, .f32⟩
  | 78 => ⟨S100000, .f32⟩
  | 79 => ⟨S100000, .f32⟩
  | 80 => ⟨S_, .i32⟩
  | 81 => ⟨S1600000, .i32⟩
  | 82 => ⟨S1600000, .i1⟩
  | 83 => ⟨S_, .i32⟩
  | 84 => ⟨S1600000, .i32⟩
  | 85 => ⟨S1600000, .i32⟩
  | 86 => ⟨S1600000, .i32⟩
  | 87 => ⟨S1600000x1, .i32⟩
  | 88 => ⟨S1600000, .f32⟩
  | 89 => ⟨S_, .i32⟩
  | 90 => ⟨S1600000, .i32⟩
  | 91 => ⟨S1600000, .i1⟩
  | 92 => ⟨S_, .i32⟩
  | 93 => ⟨S1600000, .i32⟩
  | 94 => ⟨S1600000, .i32⟩
  | 95 => ⟨S1600000, .i32⟩
  | 96 => ⟨S1600000x1, .i32⟩
  | 97 => ⟨S1600000, .f32⟩
  | 98 => ⟨S1600000, .f32⟩
  | 99 => ⟨S_, .i32⟩
  | 100 => ⟨S1600000, .i32⟩
  | 101 => ⟨S1600000, .i1⟩
  | 102 => ⟨S_, .i32⟩
  | 103 => ⟨S1600000, .i32⟩
  | 104 => ⟨S1600000, .i32⟩
  | 105 => ⟨S1600000, .i32⟩
  | 106 => ⟨S1600000x1, .i32⟩
  | 107 => ⟨S1600000x128, .f32⟩
  | 108 => ⟨S1600000x1, .f32⟩
  | 109 => ⟨S1600000x128, .f32⟩
  | 110 => ⟨S1600000x128, .f32⟩
  | 111 => ⟨S_, .f32⟩
  | 112 => ⟨S100000x128, .f32⟩
  | 113 => ⟨S1600000x1, .i32⟩
  | 114 => ⟨S100000x128, .f32⟩
  | 115 => ⟨S100000, .f32⟩
  | 116 => ⟨S100000x1, .f32⟩
  | 117 => ⟨S100000x128, .f32⟩
  | 118 => ⟨S100000x128, .f32⟩
  | 119 => ⟨S100000x128, .f32⟩
  | 120 => ⟨S1x128, .f32⟩
  | 121 => ⟨S100000x128, .f32⟩
  | 122 => ⟨S100000x128, .f32⟩
  | 123 => ⟨S_, .f32⟩
  | 124 => ⟨S100000x128, .f32⟩
  | 125 => ⟨S100000x128, .f32⟩
  | 126 => ⟨S100000x256, .f32⟩
  | 127 => ⟨S100000x40, .f32⟩
  | _ => ⟨S100000x128, .f32⟩

abbrev hbmTy0_1 (i : Nat) : BufTy := match i % 128 with
  | 0 => ⟨S1x40, .f32⟩
  | 1 => ⟨S100000x40, .f32⟩
  | 2 => ⟨S100000x40, .f32⟩
  | 3 => ⟨S_, .f32⟩
  | 4 => ⟨S100000, .f32⟩
  | 5 => ⟨S_, .f32⟩
  | 6 => ⟨S100000, .f32⟩
  | 7 => ⟨S100000, .f32⟩
  | 8 => ⟨S100000x1, .f32⟩
  | 9 => ⟨S100000x40, .f32⟩
  | 10 => ⟨S100000x40, .f32⟩
  | 11 => ⟨S100000x40, .f32⟩
  | 12 => ⟨S_, .f32⟩
  | 13 => ⟨S100000, .f32⟩
  | 14 => ⟨S100000x1, .f32⟩
  | 15 => ⟨S100000x1, .f32⟩
  | 16 => ⟨S100000x40, .f32⟩
  | 17 => ⟨S100000x40, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_1 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_c : Ref sig .tc := ⟨.hbm, 23, rfl⟩
abbrev main_v12 : Ref sig .tc := ⟨.hbm, 24, rfl⟩
abbrev main_v13 : Ref sig .tc := ⟨.hbm, 25, rfl⟩
abbrev main_c_2 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_c_3 : Ref sig .tc := ⟨.hbm, 32, rfl⟩
abbrev main_v19 : Ref sig .tc := ⟨.hbm, 33, rfl⟩
abbrev main_v20 : Ref sig .tc := ⟨.hbm, 34, rfl⟩
abbrev main_c_4 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_c_5 : Ref sig .tc := ⟨.hbm, 42, rfl⟩
abbrev main_v27 : Ref sig .tc := ⟨.hbm, 43, rfl⟩
abbrev main_v28 : Ref sig .tc := ⟨.hbm, 44, rfl⟩
abbrev main_c_6 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_7 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_call0_cst : Ref sig .tc := ⟨.hbm, 66, rfl⟩
abbrev main_call0_v0 : Ref sig .tc := ⟨.hbm, 67, rfl⟩
abbrev main_v48 : Ref sig .tc := ⟨.hbm, 68, rfl⟩
abbrev main_v49 : Ref sig .tc := ⟨.hbm, 69, rfl⟩
abbrev main_cst_8 : Ref sig .tc := ⟨.hbm, 70, rfl⟩
abbrev main_v50 : Ref sig .tc := ⟨.hbm, 71, rfl⟩
abbrev main_cst_9 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_cst_10 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_c_11 : Ref sig .tc := ⟨.hbm, 80, rfl⟩
abbrev main_v57 : Ref sig .tc := ⟨.hbm, 81, rfl⟩
abbrev main_v58 : Ref sig .tc := ⟨.hbm, 82, rfl⟩
abbrev main_c_12 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_c_13 : Ref sig .tc := ⟨.hbm, 89, rfl⟩
abbrev main_v64 : Ref sig .tc := ⟨.hbm, 90, rfl⟩
abbrev main_v65 : Ref sig .tc := ⟨.hbm, 91, rfl⟩
abbrev main_c_14 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_c_15 : Ref sig .tc := ⟨.hbm, 99, rfl⟩
abbrev main_v72 : Ref sig .tc := ⟨.hbm, 100, rfl⟩
abbrev main_v73 : Ref sig .tc := ⟨.hbm, 101, rfl⟩
abbrev main_c_16 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_cst_17 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_call1_cst : Ref sig .tc := ⟨.hbm, 123, rfl⟩
abbrev main_call1_v0 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_call2_cst : Ref sig .tc := ⟨.hbm, 131, rfl⟩
abbrev main_call2_v0 : Ref sig .tc := ⟨.hbm, 132, rfl⟩
abbrev main_call2_cst_0 : Ref sig .tc := ⟨.hbm, 133, rfl⟩
abbrev main_call2_v1 : Ref sig .tc := ⟨.hbm, 134, rfl⟩
abbrev main_call2_v2 : Ref sig .tc := ⟨.hbm, 135, rfl⟩
abbrev main_call2_v3 : Ref sig .tc := ⟨.hbm, 136, rfl⟩
abbrev main_call2_v4 : Ref sig .tc := ⟨.hbm, 137, rfl⟩
abbrev main_call2_v5 : Ref sig .tc := ⟨.hbm, 138, rfl⟩
abbrev main_call2_v6 : Ref sig .tc := ⟨.hbm, 139, rfl⟩
abbrev main_call2_cst_1 : Ref sig .tc := ⟨.hbm, 140, rfl⟩
abbrev main_call2_v7 : Ref sig .tc := ⟨.hbm, 141, rfl⟩
abbrev main_call2_v8 : Ref sig .tc := ⟨.hbm, 142, rfl⟩
abbrev main_call2_v9 : Ref sig .tc := ⟨.hbm, 143, rfl⟩
abbrev main_call2_v10 : Ref sig .tc := ⟨.hbm, 144, rfl⟩
abbrev main_v99 : Ref sig .tc := ⟨.hbm, 145, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  concatenates_S100000x128_S100000x128_S100000x256_d1 : Shape.Concatenates [S100000x128, S100000x128] S100000x256 1
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  reducesTo_S100000x40_S100000_d1 : S100000x40.ReducesTo [1] S100000
  h_S_ : 0 < S_.numel
  bcast_S100000x1_S100000x40_0_1 : S100000x1.BroadcastsInDim S100000x40 (![0, 1] : Fin 2 → Fin S100000x40.rank)
  dot_S100000x128_S128x128_S100000x128_1_0_0_1_n_n_wf : DotDims.WF S100000x128 S128x128 S100000x128 [1] [0] [0] [1] [] []
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x256_S256x40_S100000x40_1_0_0_1_n_n_wf : DotDims.WF S100000x256 S256x40 S100000x40 [1] [0] [0] [1] [] []

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x256_S256x40_S100000x40_1_0_0_1_n_n : DotDims S100000x256 S256x40 S100000x40 where
  lhsContracting := [1]
  rhsContracting := [0]
  lhsNonContracting := [0]
  rhsNonContracting := [1]
  lhsBatch := []
  rhsBatch := []
  wf := dot_S100000x256_S256x40_S100000x40_1_0_0_1_n_n_wf

class Facts : Prop extends Facts₀ where

variable [Facts]
-- ==== Proof.Spec.lean ====
/-
  The mathematics both programs compute in their last stage, over the extended reals, one node (row) at a time.

  A node's two hidden vectors h1, h2 (128 entries each) meet the classifier: for each of the 40 classes q the logit is
      (∑ k, h1 k · W1 k q  +  ∑ k, h2 k · W2 k q)  +  b q,
  and the output is the log-softmax of the 40 logits,
      a j − M − log (∑ q, exp (a q − M)),       M = max (−∞) (max over q of a q).

  The kernel lays the 40 classes out on 128 lanes and fills the 88 extra lanes with −∞ before the same log-softmax
  over 128 lanes; the extra lanes change neither the maximum (−∞ is max's neutral element) nor the sum
  (exp (−∞ − M) = exp (−∞) = 0 on the extended reals, whatever M is): `lsm_pad`.
-/
import Idealize.ShloMosaic.PureOps.Ideal
import Idealize.ShloMosaic.Lib.ValueIdx

noncomputable section

namespace Cert.Spec

open Idealize.ShloMosaic Idealize.ShloMosaic.ValueIdx

/-- Node `i`'s logit for class `q`: its two hidden rows against the two halves (rows 0–127 and 128–255) of the
    classifier's 256×40 weights, plus the bias. -/
def logit (h1 h2 : (⟨2, ![100000, 128]⟩ : Shape).Idx → EReal) (W : (⟨2, ![256, 40]⟩ : Shape).Idx → EReal)
    (b : (⟨1, ![40]⟩ : Shape).Idx → EReal) (i : Fin 100000) (q : Fin 40) : EReal :=
  (∑ k : Fin 128, h1 (ix2 i k) * W (ix2 (⟨k.val, by omega⟩ : Fin 256) q)
    + ∑ k : Fin 128, h2 (ix2 i k) * W (ix2 (⟨128 + k.val, by omega⟩ : Fin 256) q)) + b (ix1 q)

/-- The same logit on the kernel's 128-lane layout: the two weight halves and the bias as 128-lane arrays, lane `q`. -/
def plogit (h1 h2 : (⟨2, ![100000, 128]⟩ : Shape).Idx → EReal) (w1 w2 : (⟨2, ![128, 128]⟩ : Shape).Idx → EReal)
    (b : (⟨2, ![1, 128]⟩ : Shape).Idx → EReal) (i : Fin 100000) (q : Fin 128) : EReal :=
  (∑ k : Fin 128, h1 (ix2 i k) * w1 (ix2 k q) + ∑ k : Fin 128, h2 (ix2 i k) * w2 (ix2 k q)) + b (ix2 (0 : Fin 1) q)

/-- The row maximum as both programs take it: the maximum of −∞ and the fold of `max` from −∞ over the row. -/
def rowMax {n : Nat} (a : Fin n → EReal) : EReal := max ⊥ ((Finset.univ : Finset (Fin n)).fold max ⊥ a)

/-- Log-softmax of a row of `n` extended reals at position `j`. -/
def lsm {n : Nat} (a : Fin n → EReal) (j : Fin n) : EReal :=
  (a j - rowMax a) - Ideal.log (∑ k : Fin n, Ideal.exp (a k - rowMax a))

/-- A row of 40 laid out on 128 lanes, the 88 extra lanes at −∞. -/
def pad40 (a : Fin 40 → EReal) (q : Fin 128) : EReal := if h : q.val < 40 then a ⟨q.val, h⟩ else ⊥

/-- The fold of `max` from −∞ over the 128 lanes of a padded row is the fold over its 40 entries. -/
theorem fold_max_pad40 (a : Fin 40 → EReal) :
    (Finset.univ : Finset (Fin 128)).fold max ⊥ (pad40 a) = (Finset.univ : Finset (Fin 40)).fold max ⊥ a := by
  apply le_antisymm
  · rw [Finset.fold_max_le]
    refine ⟨bot_le, fun q _ => ?_⟩
    unfold pad40
    by_cases h : q.val < 40
    · rw [dif_pos h, Finset.le_fold_max]
      exact Or.inr ⟨⟨q.val, h⟩, Finset.mem_univ _, le_rfl⟩
    · rw [dif_neg h]; exact bot_le
  · rw [Finset.fold_max_le]
    refine ⟨bot_le, fun k _ => ?_⟩
    rw [Finset.le_fold_max]
    refine Or.inr ⟨⟨k.val, by omega⟩, Finset.mem_univ _, ?_⟩
    unfold pad40
    rw [dif_pos k.isLt]

theorem rowMax_pad40 (a : Fin 40 → EReal) : rowMax (pad40 a) = rowMax a := by
  unfold rowMax; rw [fold_max_pad40]

/-- A sum over the 128 lanes of a function that vanishes on the 88 extra lanes is the sum over the 40 entries. -/
theorem sum_pad40 (f : Fin 128 → EReal) (hf : ∀ q : Fin 128, ¬ q.val < 40 → f q = 0) :
    ∑ q : Fin 128, f q = ∑ k : Fin 40, f ⟨k.val, by omega⟩ := by
  show ∑ q : Fin (40 + 88), f q = _
  rw [Fin.sum_univ_add]
  have h2 : ∑ i : Fin 88, f (Fin.natAdd 40 i) = 0 := by
    apply Finset.sum_eq_zero
    intro i _
    apply hf
    show ¬ 40 + i.val < 40
    omega
  rw [h2, add_zero]
  apply Finset.sum_congr rfl
  intro k _
  rfl

/-- The padded lanes do not change the log-softmax on the 40 real positions. -/
theorem lsm_pad (a : Fin 40 → EReal) (j : Fin 40) : lsm (pad40 a) ⟨j.val, by omega⟩ = lsm a j := by
  have hj : pad40 a ⟨j.val, by omega⟩ = a j := by
    unfold pad40; rw [dif_pos j.isLt]
  have hs : ∑ k : Fin 128, Ideal.exp (pad40 a k - rowMax a) = ∑ k : Fin 40, Ideal.exp (a k - rowMax a) := by
    rw [sum_pad40 (fun k => Ideal.exp (pad40 a k - rowMax a))]
    · apply Finset.sum_congr rfl
      intro k _
      show Ideal.exp (pad40 a ⟨k.val, _⟩ - rowMax a) = _
      unfold pad40; rw [dif_pos k.isLt]
    · intro q hq
      show Ideal.exp (pad40 a q - rowMax a) = 0
      unfold pad40; rw [dif_neg hq, EReal.bot_sub, Ideal.exp_bot]
  unfold lsm
  rw [rowMax_pad40, hj, hs]

end Cert.Spec

end
-- ==== Proof.MatmulValue.lean ====
import proofs.«431477_j5471788335195_4_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

namespace Cert.KernelIdeal.MatmulValue

open Cert.KernelIdeal Cert.KernelIdeal.Gen Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

/-- The product of a 100000×128 array with a 128×128 array, entry by entry: row `y 0` of the first against column `y 1`
    of the second. -/
def mmG (x : S100000x128.Idx → EReal) (w : S128x128.Idx → EReal) : S100000x128.Idx → EReal :=
  fun y => ∑ k : Fin 128, x (ix2 (n0 := 100000) (n1 := 128) (y 0) k) * w (ix2 (n0 := 128) (n1 := 128) k (y 1))

/-- The product read at an index. -/
private theorem mmG_apply (x : S100000x128.Idx → EReal) (w : S128x128.Idx → EReal) (y : S100000x128.Idx) :
    mmG x w y = ∑ k : Fin 128, x (ix2 (y 0) k) * w (ix2 k (y 1)) := rfl

/-! ## The block product at an index -/

/-- The block product's left index keeps the output's row … -/
private theorem lhs_row (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- … and takes the contracted position as its column; -/
private theorem lhs_col (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
/-- the right index takes the contracted position as its row … -/
private theorem rhs_row (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
/-- … and keeps the output's column. -/
private theorem rhs_col (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The block product into the zero accumulator, at row `p` and column `q`: the sum over the 128 contracted
    positions of the left block's row against the right block's column. -/
private theorem matmul_at (a : FVec Ideal S5000x128 .bf16) (b : FVec Ideal S128x128 .bf16) (p : Fin 5000) (q : Fin 128) :
    (matmul dot_S5000x128_S128x128_S5000x128_1_0_0_1_n_n none a b (constant (F := Ideal) S5000x128 .f32 0x00000000#32) : FVec Ideal S5000x128 .f32) (ix2 p q)
      = ∑ k : Fin 128, a (ix2 p k) * b (ix2 k q) := by
  show FloatOps.matmul dot_S5000x128_S128x128_S5000x128_1_0_0_1_n_n none a b (constant (F := Ideal) S5000x128 .f32 0x00000000#32) (ix2 p q) = _
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 p q) ((ValueIdx.contrEquiv1 dot_S5000x128_S128x128_S5000x128_1_0_0_1_n_n 128 rfl rfl).symm k) = ix2 p k := funext fun a => Fin.ext (by
    match a with
    | ⟨0, _⟩ => exact lhs_row _ _
    | ⟨1, _⟩ => exact (lhs_col _ _).trans hk)
  have er : dot_S5000x128_S128x128_S5000x128_1_0_0_1_n_n.rhsIdx (ix2 p q) ((ValueIdx.contrEquiv1 dot_S5000x128_S128x128_S5000x128_1_0_0_1_n_n 128 rfl rfl).symm k) = ix2 k q := funext fun a => Fin.ext (by
    match a with
    | ⟨0, _⟩ => exact (rhs_row _ _).trans hk
    | ⟨1, _⟩ => exact rhs_col _ _)
  rw [el, er]

/-- Region 0's stored value at row `p`, column `q` of the block (narrowing to bf16 is the identity on ideal values). -/
private theorem pay0_at (x0 : Vec Ideal S5000x128 .f32) (x1 : Vec Ideal S128x128 .f32) (p : Fin 5000) (q : Fin 128) :
    k0_pay1 (F := Ideal) x0 x1 (ix2 p q) = ∑ k : Fin 128, x0 (ix2 p k) * x1 (ix2 k q) := by
  unfold k0_pay1
  exact matmul_at (truncf .bf16 x0 bitsLt_bf16_f32) (truncf .bf16 x1 bitsLt_bf16_f32) p q

/-- Region 1's stored value: the same product (a reshape to the same shape changes nothing). -/
private theorem pay1_at (x0 : Vec Ideal S5000x128 .f32) (x1 : Vec Ideal S128x128 .f32) (p : Fin 5000) (q : Fin 128) :
    k1_pay1 (F := Ideal) x0 x1 (ix2 p q) = ∑ k : Fin 128, x0 (ix2 p k) * x1 (ix2 k q) := by
  unfold k1_pay1
  rw [shapeCast_self]
  exact matmul_at (truncf .bf16 x0 bitsLt_bf16_f32) (truncf .bf16 x1 bitsLt_bf16_f32) p q

/-- The body's accesses start at the block's origin. -/
private theorem hz : (![0, 0] : Fin 2 → Nat) = fun _ => 0 := funext fun a => by fin_cases a <;> rfl

/-! ## Region 0: the blocks of the product tile the array -/

/-- The printed index maps of region 0, decided over the 20 grid points: the left operand's block moves with the
    output's block down the rows, the right operand is one block, and the output's blocks stay in one column of
    at most 20 block rows. -/
private theorem idx_facts0 : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (0 : Fin 2) ≤ 19
    ∧ win0_2.index t (1 : Fin 2) = 0 :=
  (by decide +kernel : ∀ t : Fin grid0.N, _)

/-- Every block row of the output is some point's. -/
private theorem idx_onto0 : ∀ (q0 : Fin 20), ∃ t : Fin cfg0.N, win0_2.index t = ![q0.val, 0] :=
  (by decide +kernel : ∀ (q0 : Fin 20), ∃ t : Fin grid0.N, win0_2.index t = ![q0.val, 0])

/-- Region 0's stored value at any index of the block: row `j 0` of the left block against column `j 1` of the right. -/
private theorem pay0_read (x0 : Vec Ideal S5000x128 .f32) (x1 : Vec Ideal S128x128 .f32) (j : S5000x128.Idx) :
    k0_pay1 (F := Ideal) x0 x1 j = ∑ k : Fin 128, x0 (ix2 (j 0) k) * x1 (ix2 k (j 1)) := by
  obtain ⟨p, q, rfl⟩ : ∃ (p : Fin 5000) (q : Fin 128), j = ix2 p q := ⟨j 0, j 1, eq_ix2 j⟩
  exact pay0_at x0 x1 p q

/-- What point `t` of region 0 writes back is block `t` of the product of the two arrays as the region finds them:
    the left block's row `p` is row `5000 * (block row) + p` of the left array, the right block is the whole right array. -/
private theorem flushed0_eq (c : Dev nD) (t : Fin cfg0.N) :
    (dat0 (F := Ideal) V c).flushed 2 t = ((cfg0.win 2).blk t).view.read (Elt Ideal) (mmG (V c main_arg0) (V c main_arg2)) := by
  show (cfg0.win 2).cut (grid0.coords t) ((dat0 V c).after 2 t) = _
  rw [after0_2]
  unfold out0_2
  rw [View.canon_unit_zero hz]
  simp only [View.ld_unit_zero (S := S5000x128) hz, View.ld_unit_zero (S := S128x128) hz]
  obtain ⟨e0, e1, e2, e3, e4, e5⟩ := idx_facts0 t
  funext j
  refine (pay0_read (iblk0 V c 0 t) (iblk0 V c 1 t) j).trans ?_
  show _ = mmG (V c main_arg0) (V c main_arg2) (((cfg0.win 2).blk t).view.emb j)
  rw [mmG_apply]
  refine Finset.sum_congr rfl fun k _ => ?_
  have h0 : iblk0 V c 0 t (ix2 (j 0) k) = (V c main_arg0 : S100000x128.Idx → EReal) (ix2 ((((cfg0.win 2).blk t).view.emb j) 0) k) := by
    show (V c main_arg0 : S100000x128.Idx → EReal) (((cfg0.win 0).blk t).view.emb (ix2 (j 0) k)) = _
    refine congrArg _ ?_
    funext a; apply Fin.ext
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 128 + 1 * k.val = k.val; omega
  have h1 : iblk0 V c 1 t (ix2 k (j 1)) = (V c main_arg2 : S128x128.Idx → EReal) (ix2 k ((((cfg0.win 2).blk t).view.emb j) 1)) := by
    show (V c main_arg2 : S128x128.Idx → EReal) (((cfg0.win 1).blk t).view.emb (ix2 k (j 1))) = _
    refine congrArg _ ?_
    funext a; apply Fin.ext
    match a with
    | ⟨0, _⟩ => show win0_1.index t (0 : Fin 2) * 128 + 1 * k.val = k.val; omega
    | ⟨1, _⟩ => show win0_1.index t (1 : Fin 2) * 128 + 1 * (j 1).val = win0_2.index t (1 : Fin 2) * 128 + 1 * (j 1).val; omega
  rw [h0, h1]

/-- An index of the array is in point `t`'s block iff each coordinate is in the block's range on its axis. -/
private theorem mem_blk0 (t : Fin cfg0.N) (i : S100000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v4).slice (win0_2.rect t)).set ↔ _
  rw [View.set_slice_whole, Rect.mem_set_unit]
  exact Iff.rfl

/-- Every index of the array is in the block of the point that owns its row: row `r` is in block row `r / 5000`. -/
private theorem cover0 (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  obtain ⟨t, ht⟩ := idx_onto0 ⟨(i 0).val / 5000, by omega⟩
  have q0 : win0_2.index t (0 : Fin 2) = (i 0).val / 5000 := congrFun ht 0
  have q1 : win0_2.index t (1 : Fin 2) = 0 := congrFun ht 1
  refine ⟨t, flush0_2 t, ?_⟩
  rw [mem_blk0]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- Region 0's output array after the region: the product of the two arrays the region reads, as it finds them. -/
theorem region0_final (c : Dev nD) :
    (dat0 (F := Ideal) V c).arrAt 2 cfg0.N = mmG (V c main_arg0) (V c main_arg2) :=
  (dat0 (F := Ideal) V c).arrAt_eq_of_cover 2 (mmG (V c main_arg0) (V c main_arg2)) (fun t _ => flushed0_eq V c t) cover0

/-! ## Region 1: the blocks of the product tile the array -/

/-- The printed index maps of region 1, decided over the 20 grid points: the left operand's block moves with the
    output's block down the rows, the right operand is one block, and the output's blocks stay in one column of
    at most 20 block rows. -/
private theorem idx_facts1 : ∀ t : Fin cfg1.N, win1_0.index t (0 : Fin 2) = win1_2.index t (0 : Fin 2)
    ∧ win1_0.index t (1 : Fin 2) = 0
    ∧ win1_1.index t (0 : Fin 2) = 0
    ∧ win1_1.index t (1 : Fin 2) = 0
    ∧ win1_2.index t (0 : Fin 2) ≤ 19
    ∧ win1_2.index t (1 : Fin 2) = 0 :=
  (by decide +kernel : ∀ t : Fin grid1.N, _)

/-- Every block row of the output is some point's. -/
private theorem idx_onto1 : ∀ (q0 : Fin 20), ∃ t : Fin cfg1.N, win1_2.index t = ![q0.val, 0] :=
  (by decide +kernel : ∀ (q0 : Fin 20), ∃ t : Fin grid1.N, win1_2.index t = ![q0.val, 0])

/-- Region 1's stored value at any index of the block: row `j 0` of the left block against column `j 1` of the right. -/
private theorem pay1_read (x0 : Vec Ideal S5000x128 .f32) (x1 : Vec Ideal S128x128 .f32) (j : S5000x128.Idx) :
    k1_pay1 (F := Ideal) x0 x1 j = ∑ k : Fin 128, x0 (ix2 (j 0) k) * x1 (ix2 k (j 1)) := by
  obtain ⟨p, q, rfl⟩ : ∃ (p : Fin 5000) (q : Fin 128), j = ix2 p q := ⟨j 0, j 1, eq_ix2 j⟩
  exact pay1_at x0 x1 p q

/-- What point `t` of region 1 writes back is block `t` of the product of the two arrays as the region finds them:
    the left block's row `p` is row `5000 * (block row) + p` of the left array, the right block is the whole right array. -/
private theorem flushed1_eq (c : Dev nD) (t : Fin cfg1.N) :
    (dat1 (F := Ideal) V c).flushed 2 t = ((cfg1.win 2).blk t).view.read (Elt Ideal) (mmG (V c main_v48) (V c main_arg4)) := by
  show (cfg1.win 2).cut (grid1.coords t) ((dat1 V c).after 2 t) = _
  rw [after1_2]
  unfold out1_2
  rw [View.canon_unit_zero hz]
  simp only [View.ld_unit_zero (S := S5000x128) hz, View.ld_unit_zero (S := S128x128) hz]
  obtain ⟨e0, e1, e2, e3, e4, e5⟩ := idx_facts1 t
  funext j
  refine (pay1_read (iblk1 V c 0 t) (iblk1 V c 1 t) j).trans ?_
  show _ = mmG (V c main_v48) (V c main_arg4) (((cfg1.win 2).blk t).view.emb j)
  rw [mmG_apply]
  refine Finset.sum_congr rfl fun k _ => ?_
  have h0 : iblk1 V c 0 t (ix2 (j 0) k) = (V c main_v48 : S100000x128.Idx → EReal) (ix2 ((((cfg1.win 2).blk t).view.emb j) 0) k) := by
    show (V c main_v48 : S100000x128.Idx → EReal) (((cfg1.win 0).blk t).view.emb (ix2 (j 0) k)) = _
    refine congrArg _ ?_
    funext a; apply Fin.ext
    match a with
    | ⟨0, _⟩ => show win1_0.index t (0 : Fin 2) * 5000 + 1 * (j 0).val = win1_2.index t (0 : Fin 2) * 5000 + 1 * (j 0).val; omega
    | ⟨1, _⟩ => show win1_0.index t (1 : Fin 2) * 128 + 1 * k.val = k.val; omega
  have h1 : iblk1 V c 1 t (ix2 k (j 1)) = (V c main_arg4 : S128x128.Idx → EReal) (ix2 k ((((cfg1.win 2).blk t).view.emb j) 1)) := by
    show (V c main_arg4 : S128x128.Idx → EReal) (((cfg1.win 1).blk t).view.emb (ix2 k (j 1))) = _
    refine congrArg _ ?_
    funext a; apply Fin.ext
    match a with
    | ⟨0, _⟩ => show win1_1.index t (0 : Fin 2) * 128 + 1 * k.val = k.val; omega
    | ⟨1, _⟩ => show win1_1.index t (1 : Fin 2) * 128 + 1 * (j 1).val = win1_2.index t (1 : Fin 2) * 128 + 1 * (j 1).val; omega
  rw [h0, h1]

/-- An index of the array is in point `t`'s block iff each coordinate is in the block's range on its axis. -/
private theorem mem_blk1 (t : Fin cfg1.N) (i : S100000x128.Idx) :
    i ∈ ((cfg1.win 2).blk t).view.set ↔ ∀ a : Fin 2, win1_2.index t a * S5000x128.size a ≤ (i a).val ∧ (i a).val < win1_2.index t a * S5000x128.size a + S5000x128.size a := by
  show i ∈ ((View.whole main_v49).slice (win1_2.rect t)).set ↔ _
  rw [View.set_slice_whole, Rect.mem_set_unit]
  exact Iff.rfl

/-- Every index of the array is in the block of the point that owns its row: row `r` is in block row `r / 5000`. -/
private theorem cover1 (i : S100000x128.Idx) :
    ∃ t : Fin cfg1.N, (cfg1.win 2).flush t = true ∧ i ∈ ((cfg1.win 2).blk t).view.set := by
  have hi0 : (i 0).val < 100000 := (i 0).isLt
  have hi1 : (i 1).val < 128 := (i 1).isLt
  obtain ⟨t, ht⟩ := idx_onto1 ⟨(i 0).val / 5000, by omega⟩
  have q0 : win1_2.index t (0 : Fin 2) = (i 0).val / 5000 := congrFun ht 0
  have q1 : win1_2.index t (1 : Fin 2) = 0 := congrFun ht 1
  refine ⟨t, flush1_2 t, ?_⟩
  rw [mem_blk1]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 128 ≤ (i 1).val ∧ (i 1).val < win1_2.index t (1 : Fin 2) * 128 + 128; omega

/-- Region 1's output array after the region: the product of the two arrays the region reads, as it finds them. -/
theorem region1_final (c : Dev nD) :
    (dat1 (F := Ideal) V c).arrAt 2 cfg1.N = mmG (V c main_v48) (V c main_arg4) :=
  (dat1 (F := Ideal) V c).arrAt_eq_of_cover 2 (mmG (V c main_v48) (V c main_arg4)) (fun t _ => flushed1_eq V c t) cover1

end Cert.KernelIdeal.MatmulValue

end
-- ==== Proof.HeadValue.lean ====
import proofs.«431477_j5471788335195_4_alg».proof.Proof.Gen.KernelIdeal.Frame
import proofs.«431477_j5471788335195_4_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.HeadValue

open Cert.KernelIdeal Cert.KernelIdeal.Gen Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

/-- The head region's whole output array: row `y 0` is the log-softmax over 128 lanes of that node's 40 logits laid out
    on 128 lanes, the 88 extra lanes at −∞. -/
def headG (h1 h2 : S100000x128.Idx → EReal) (w1 w2 : S128x128.Idx → EReal) (b : S1x128.Idx → EReal) : S100000x128.Idx → EReal :=
  fun y => Spec.lsm (Spec.pad40 fun q : Fin 40 => Spec.plogit h1 h2 w1 w2 b (y 0) ⟨q.val, by omega⟩) (y 1)

/-! ## The payload at an index

The head kernel's stored value, read at row `p` and lane `q` of a block: the two block products read as sums over the
contraction index, the bias row broadcast, the lanes from 40 on replaced by −∞, then the log-softmax along the lanes
(row maximum, subtraction, exponential, row sum, logarithm, subtraction). -/

/-! ### The block product read at an index -/

private theorem dot_lhs_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
private theorem dot_lhs_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
private theorem dot_rhs_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
private theorem dot_rhs_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The block product into the zero splat, at row `p` and lane `q`: the row of the left block against the column of the right. -/
private theorem mm_apply (x : FVec Ideal S5000x128 .bf16) (w : FVec Ideal S128x128 .bf16) (p : Fin 5000) (q : Fin 128) :
    matmul dot_S5000x128_S128x128_S5000x128_1_0_0_1_n_n none x w (constant (F := Ideal) S5000x128 .f32 0x00000000#32) (ix2 p q)
      = ∑ k : Fin 128, x (ix2 p k) * w (ix2 k q) := by
  simp only [matmul]
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 p q) ((ValueIdx.contrEquiv1 dot_S5000x128_S128x128_S5000x128_1_0_0_1_n_n 128 rfl rfl).symm k) = ix2 p k := funext fun a => Fin.ext (by
    match a with
    | ⟨0, _⟩ => exact dot_lhs_0 _ _
    | ⟨1, _⟩ => exact (dot_lhs_1 _ _).trans hk)
  have er : dot_S5000x128_S128x128_S5000x128_1_0_0_1_n_n.rhsIdx (ix2 p q) ((ValueIdx.contrEquiv1 dot_S5000x128_S128x128_S5000x128_1_0_0_1_n_n 128 rfl rfl).symm k) = ix2 k q := funext fun a => Fin.ext (by
    match a with
    | ⟨0, _⟩ => exact (dot_rhs_0 _ _).trans hk
    | ⟨1, _⟩ => exact dot_rhs_1 _ _)
  rw [el, er]

section Layout
variable {α : Type}

/-- An `[a]` array cast to `[a, 1]` reads, at `(i, u)`, the operand at `i`, whatever the unit coordinate `u`. -/
private theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
private theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

end Layout

/-- The bit pattern of −∞ denotes ⊥. -/
private theorem ofBits_neg_inf : Ideal.ofBits .f32 0xFF800000#32 = ⊥ := by simp [Ideal.ofBits, Ideal.ieee]

/-- The row maximum of a 5000×128 block as the kernel takes it, at row `p`. -/
private theorem rowmax_apply (v : FVec Ideal S5000x128 .f32) (hφ : FKind.Formats .f32)
    (hacc : (0xFF800000#32 : BitVec 32) = 0xFF800000#32) (p : Fin 5000) :
    maximumf (broadcast S5000 (Scalar.ofBits (F := Ideal) .f32 0xFF800000#32))
        (multiReduction (F := Ideal) .maximumf [1] S5000 v 0xFF800000#32 reduces_S5000x128_S5000 hφ hacc) (ix1 p)
      = Spec.rowMax (fun l : Fin 128 => v (ix2 p l)) := by
  rw [maximumf_apply, broadcast_apply]
  show max (Ideal.ofBits .f32 0xFF800000#32) _ = max ⊥ _
  rw [ofBits_neg_inf]
  refine congrArg (max (⊥ : EReal)) ?_
  refine (Ideal.multiReduction_maximumf_single v _ reduces_S5000x128_S5000 hφ hacc (ix1 p)).trans ?_
  show (Finset.univ : Finset (Fin 128)).fold max (Ideal.ofBits .f32 0xFF800000#32) (fun l => v (reduces_S5000x128_S5000.lift (ix1 p) l)) = _
  rw [ofBits_neg_inf]
  refine congrArg (fun f => (Finset.univ : Finset (Fin 128)).fold max (⊥ : EReal) f) (funext fun l => congrArg v (funext fun a => ?_))
  match a with
  | ⟨0, _⟩ => rfl
  | ⟨1, _⟩ => rfl

/-- The row sum of a 5000×128 block, at row `p`. -/
private theorem rowsum_apply (v : FVec Ideal S5000x128 .f32) (hφ : FKind.Formats .f32)
    (hacc : (0x00000000#32 : BitVec 32) = 0x00000000#32) (p : Fin 5000) :
    multiReduction (F := Ideal) .add [1] S5000 v 0x00000000#32 reduces_S5000x128_S5000 hφ hacc (ix1 p)
      = ∑ l : Fin 128, v (ix2 p l) := by
  refine (Ideal.multiReduction_add_single v _ reduces_S5000x128_S5000 hφ hacc (ix1 p)).trans ?_
  show ∑ l : Fin 128, v (reduces_S5000x128_S5000.lift (ix1 p) l) = _
  refine Finset.sum_congr rfl fun l _ => congrArg v (funext fun a => ?_)
  match a with
  | ⟨0, _⟩ => rfl
  | ⟨1, _⟩ => rfl

private theorem exp_apply {s : Shape} {φ : FTy} (a : FVec Ideal s φ) (i : s.Idx) : exp a i = Ideal.exp (a i) := rfl
private theorem log_apply {s : Shape} {φ : FTy} (a : FVec Ideal s φ) (i : s.Idx) : log a i = Ideal.log (a i) := rfl

/-- The kernel's log-softmax along the 128 lanes of a 5000×128 block, as the printed body writes it. -/
private def lsmTail (v : FVec Ideal S5000x128 .f32) : FVec Ideal S5000x128 .f32 :=
  have v24 : FVec Ideal S5000 .f32 := multiReduction .maximumf [1] S5000 v 0xFF800000#32 reduces_S5000x128_S5000 (.inl rfl) rfl
  have cst_12 : Ideal .f32 := Scalar.ofBits .f32 0xFF800000#32
  have v25 : FVec Ideal S5000 .f32 := broadcast S5000 cst_12
  have v26 : FVec Ideal S5000 .f32 := maximumf v25 v24
  have v27 : FVec Ideal S5000x1 .f32 := shapeCast S5000x1 v26 shapeCasts_S5000_S5000x1
  have v28 : FVec Ideal S5000x128 .f32 := broadcastTo S5000x128 v27 broadcasts_S5000x1_S5000x128
  have v29 : FVec Ideal S5000x128 .f32 := subf v v28
  have v30 : FVec Ideal S5000x128 .f32 := exp v29
  have v31 : FVec Ideal S5000 .f32 := multiReduction .add [1] S5000 v30 0x00000000#32 reduces_S5000x128_S5000 (.inl rfl) rfl
  have v32 : FVec Ideal S5000x1 .f32 := shapeCast S5000x1 v31 shapeCasts_S5000_S5000x1
  have v33 : FVec Ideal S5000x1 .f32 := log v32
  have v34 : FVec Ideal S5000x128 .f32 := broadcastTo S5000x128 v33 broadcasts_S5000x1_S5000x128
  subf v29 v34

private theorem lsmTail_apply (v : FVec Ideal S5000x128 .f32) (p : Fin 5000) (q : Fin 128) :
    lsmTail v (ix2 p q) = Spec.lsm (fun l : Fin 128 => v (ix2 p l)) q := by
  unfold lsmTail Spec.lsm
  simp only [subf_apply]
  rw [broadcastTo_a1_ab_apply, broadcastTo_a1_ab_apply, shapeCast_a_a1_apply, log_apply, shapeCast_a_a1_apply]
  rw [rowmax_apply, rowsum_apply]
  simp only [exp_apply, subf_apply, broadcastTo_a1_ab_apply, shapeCast_a_a1_apply]
  rw [rowmax_apply]

/-- For a lane index below 128, the signed comparison of its 32-bit word with 40 is the comparison of the numbers. -/
private theorem lane_slt_40 : ∀ q : Fin 128, IntOp.cmpi .slt (BitVec.ofNat 32 q.val) 40#32 = if q.val < 40 then 1#1 else 0#1 := by
  decide

/-- The lane test of the body at row `p`, lane `q`. -/
private theorem mask_apply (p : Fin 5000) (q : Fin 128) :
    cmpi .slt (iota .tc S5000x128 32 [1] iota_S5000x128_d1_w32) (broadcast S5000x128 40#32) (ix2 p q)
      = if q.val < 40 then 1#1 else 0#1 := by
  show IntOp.cmpi .slt (iota .tc S5000x128 32 [1] iota_S5000x128_d1_w32 (ix2 p q)) 40#32 = _
  rw [iota_single_apply]
  exact lane_slt_40 q

/-- The named mask value is −∞. -/
private theorem neg_big_eq : Named.named (F := Ideal) κ "neg_big" (φ := .f32) 0xFF333332#32 = ⊥ :=
  IdealRules.named_const.ideal_named_scalar _ _ _ _ rfl

/-- The masked logits of a 5000-row block, as the printed body writes them: the two block products, the bias row, and
    −∞ on the lanes from 40 on. -/
private def maskedLogits (v0 v2 : Vec Ideal S5000x128 .f32) (v5 v10 : Vec Ideal S128x128 .f32) (v15 : Vec Ideal S1x128 .f32) : FVec Ideal S5000x128 .f32 :=
  have v1 : FVec Ideal S5000x128 .f32 := shapeCast S5000x128 v0 shapeCasts_S5000x128_S5000x128
  have v3 : FVec Ideal S5000x128 .f32 := shapeCast S5000x128 v2 shapeCasts_S5000x128_S5000x128
  have v4 : FVec Ideal S5000x128 .bf16 := truncf .bf16 v1 bitsLt_bf16_f32
  have v6 : FVec Ideal S128x128 .f32 := shapeCast S128x128 v5 shapeCasts_S128x128_S128x128
  have v7 : FVec Ideal S128x128 .bf16 := truncf .bf16 v6 bitsLt_bf16_f32
  have cst : FVec Ideal S5000x128 .f32 := constant S5000x128 .f32 0x00000000#32
  have v8 : FVec Ideal S5000x128 .f32 := matmul dot_S5000x128_S128x128_S5000x128_1_0_0_1_n_n none v4 v7 cst
  have v9 : FVec Ideal S5000x128 .bf16 := truncf .bf16 v3 bitsLt_bf16_f32
  have v11 : FVec Ideal S128x128 .f32 := shapeCast S128x128 v10 shapeCasts_S128x128_S128x128
  have v12 : FVec Ideal S128x128 .bf16 := truncf .bf16 v11 bitsLt_bf16_f32
  have cst_7 : FVec Ideal S5000x128 .f32 := constant S5000x128 .f32 0x00000000#32
  have v13 : FVec Ideal S5000x128 .f32 := matmul dot_S5000x128_S128x128_S5000x128_1_0_0_1_n_n none v9 v12 cst_7
  have v14 : FVec Ideal S5000x128 .f32 := addf v8 v13
  have v16 : FVec Ideal S1x128 .f32 := shapeCast S1x128 v15 shapeCasts_S1x128_S1x128
  have v17 : FVec Ideal S5000x128 .f32 := broadcastTo S5000x128 v16 broadcasts_S1x128_S5000x128
  have v18 : FVec Ideal S5000x128 .f32 := addf v14 v17
  have v19 : IVec S5000x128 32 := iota .tc S5000x128 32 [1] iota_S5000x128_d1_w32
  have v20 : IVec S5000x128 32 := broadcast S5000x128 40#32
  have v21 : IVec S5000x128 1 := cmpi .slt v19 v20
  have cst_10 : Ideal .f32 := Named.named κ "neg_big" 0xFF333332#32
  have v22 : FVec Ideal S5000x128 .f32 := broadcast S5000x128 cst_10
  select v21 v18 v22

private theorem maskedLogits_apply (x0 x1 : Vec Ideal S5000x128 .f32) (x2 x3 : Vec Ideal S128x128 .f32) (x4 : Vec Ideal S1x128 .f32)
    (p : Fin 5000) (q : Fin 128) :
    maskedLogits x0 x1 x2 x3 x4 (ix2 p q)
      = if q.val < 40 then
          ((∑ k : Fin 128, x0 (ix2 p k) * x2 (ix2 k q) + ∑ k : Fin 128, x1 (ix2 p k) * x3 (ix2 k q)) + x4 (ix2 (0 : Fin 1) q))
        else ⊥ := by
  unfold maskedLogits
  simp only [shapeCast_self]
  rw [select_apply, mask_apply]
  by_cases hq : q.val < 40
  · rw [if_pos hq, if_pos hq, select_one, addf_apply, addf_apply, mm_apply, mm_apply, broadcastTo_1b_ab_apply]
    rfl
  · rw [if_neg hq, if_neg hq, select_zero, broadcast_apply]
    exact neg_big_eq

/-- The body's payload is the log-softmax of the masked logits. -/
private theorem pay_eq (x0 x1 : Vec Ideal S5000x128 .f32) (x2 x3 : Vec Ideal S128x128 .f32) (x4 : Vec Ideal S1x128 .f32) :
    k2_pay1 (F := Ideal) x0 x1 x2 x3 x4 = lsmTail (maskedLogits x0 x1 x2 x3 x4) := rfl

/-- THE PAYLOAD AT AN INDEX: row `p`, lane `q` of what the body stores is the log-softmax over the 128 lanes of row
    `p`'s logits, the lanes from 40 on at −∞. -/
private theorem pay_apply (x0 x1 : Vec Ideal S5000x128 .f32) (x2 x3 : Vec Ideal S128x128 .f32) (x4 : Vec Ideal S1x128 .f32)
    (p : Fin 5000) (q : Fin 128) :
    k2_pay1 (F := Ideal) x0 x1 x2 x3 x4 (ix2 p q)
      = Spec.lsm (fun l : Fin 128 => if l.val < 40 then
          ((∑ k : Fin 128, x0 (ix2 p k) * x2 (ix2 k l) + ∑ k : Fin 128, x1 (ix2 p k) * x3 (ix2 k l)) + x4 (ix2 (0 : Fin 1) l))
        else ⊥) q := by
  rw [pay_eq, lsmTail_apply]
  exact congrArg (fun f => Spec.lsm f q) (funext fun l => maskedLogits_apply x0 x1 x2 x3 x4 p l)

/-! ## From blocks to the array

Point `t` of the 20-point grid holds rows `5000 t … 5000 t + 4999` of the two hidden arrays and of the output; the two weight
arrays and the bias row are whole blocks at every point. -/

private theorem zero_offsets : (![0, 0] : Fin 2 → Nat) = fun _ => 0 := funext fun a => by fin_cases a <;> rfl

/-- The printed index maps, decided over the grid: the two hidden blocks and the output block move with the point
    along the rows; the weights' and the bias's block index is zero. -/
private theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- The array row under row `p` of point `t`'s block: `t` blocks of 5000 rows come before it. -/
private def rowOf (t : Fin cfg2.N) (p : Fin 5000) : Fin 100000 :=
  ⟨t.val * 5000 + p.val, by have h : t.val < grid2.N := t.isLt; rw [N_2] at h; omega⟩

/-- Each input window's block at point `t`, read at an index, is its array read at the index under it. -/
private theorem blk0_read (c : Dev nD) (t : Fin cfg2.N) (p : Fin 5000) (k : Fin 128) :
    iblk2 V c 0 t (ix2 p k) = V c main_v48 (ix2 (rowOf t p) k) := by
  obtain ⟨e0, e1, -⟩ := idx_facts t
  show V c main_v48 (((cfg2.win 0).blk t).view.emb (ix2 p k)) = V c main_v48 (ix2 (rowOf t p) k)
  refine congrArg (V c main_v48) (funext fun a => Fin.ext ?_)
  match a with
  | ⟨0, _⟩ => show win2_0.index t (0 : Fin 2) * 5000 + 1 * p.val = t.val * 5000 + p.val; omega
  | ⟨1, _⟩ => show win2_0.index t (1 : Fin 2) * 128 + 1 * k.val = k.val; omega

private theorem blk1_read (c : Dev nD) (t : Fin cfg2.N) (p : Fin 5000) (k : Fin 128) :
    iblk2 V c 1 t (ix2 p k) = V c main_v93 (ix2 (rowOf t p) k) := by
  obtain ⟨-, -, e0, e1, -⟩ := idx_facts t
  show V c main_v93 (((cfg2.win 1).blk t).view.emb (ix2 p k)) = V c main_v93 (ix2 (rowOf t p) k)
  refine congrArg (V c main_v93) (funext fun a => Fin.ext ?_)
  match a with
  | ⟨0, _⟩ => show win2_1.index t (0 : Fin 2) * 5000 + 1 * p.val = t.val * 5000 + p.val; omega
  | ⟨1, _⟩ => show win2_1.index t (1 : Fin 2) * 128 + 1 * k.val = k.val; omega

private theorem blk2_read (c : Dev nD) (t : Fin cfg2.N) (k l : Fin 128) :
    iblk2 V c 2 t (ix2 k l) = V c main_v95 (ix2 k l) := by
  obtain ⟨-, -, -, -, e0, e1, -⟩ := idx_facts t
  show V c main_v95 (((cfg2.win 2).blk t).view.emb (ix2 k l)) = V c main_v95 (ix2 k l)
  refine congrArg (V c main_v95) (funext fun a => Fin.ext ?_)
  match a with
  | ⟨0, _⟩ => show win2_2.index t (0 : Fin 2) * 128 + 1 * k.val = k.val; omega
  | ⟨1, _⟩ => show win2_2.index t (1 : Fin 2) * 128 + 1 * l.val = l.val; omega

private theorem blk3_read (c : Dev nD) (t : Fin cfg2.N) (k l : Fin 128) :
    iblk2 V c 3 t (ix2 k l) = V c main_v97 (ix2 k l) := by
  obtain ⟨-, -, -, -, -, -, e0, e1, -⟩ := idx_facts t
  show V c main_v97 (((cfg2.win 3).blk t).view.emb (ix2 k l)) = V c main_v97 (ix2 k l)
  refine congrArg (V c main_v97) (funext fun a => Fin.ext ?_)
  match a with
  | ⟨0, _⟩ => show win2_3.index t (0 : Fin 2) * 128 + 1 * k.val = k.val; omega
  | ⟨1, _⟩ => show win2_3.index t (1 : Fin 2) * 128 + 1 * l.val = l.val; omega

private theorem blk4_read (c : Dev nD) (t : Fin cfg2.N) (u : Fin 1) (l : Fin 128) :
    iblk2 V c 4 t (ix2 u l) = V c main_v99 (ix2 u l) := by
  obtain ⟨-, -, -, -, -, -, -, -, e0, e1, -⟩ := idx_facts t
  show V c main_v99 (((cfg2.win 4).blk t).view.emb (ix2 u l)) = V c main_v99 (ix2 u l)
  refine congrArg (V c main_v99) (funext fun a => Fin.ext ?_)
  match a with
  | ⟨0, _⟩ => show win2_4.index t (0 : Fin 2) * 1 + 1 * u.val = u.val; omega
  | ⟨1, _⟩ => show win2_4.index t (1 : Fin 2) * 128 + 1 * l.val = l.val; omega

/-- The array index under row `p`, lane `q` of the output window's block at point `t`. -/
private theorem blk5_emb (t : Fin cfg2.N) (p : Fin 5000) (q : Fin 128) :
    ((cfg2.win 5).blk t).view.emb (ix2 p q) = ix2 (rowOf t p) q := by
  obtain ⟨-, -, -, -, -, -, -, -, -, -, e0, e1⟩ := idx_facts t
  refine funext fun a => Fin.ext ?_
  match a with
  | ⟨0, _⟩ => show win2_5.index t (0 : Fin 2) * 5000 + 1 * p.val = t.val * 5000 + p.val; omega
  | ⟨1, _⟩ => show win2_5.index t (1 : Fin 2) * 128 + 1 * q.val = q.val; omega

/-- WHAT POINT `t` WRITES BACK is block `t` of `headG` of the arrays as the region finds them. -/
private theorem flushed_eq (c : Dev nD) (t : Fin cfg2.N) :
    (dat2 (F := Ideal) V c).flushed 5 t
      = ((cfg2.win 5).blk t).view.read (Elt Ideal)
          (headG (V c main_v48) (V c main_v93) (V c main_v95) (V c main_v97) (V c main_v99)) := by
  show (cfg2.win 5).cut (grid2.coords t) ((dat2 (F := Ideal) V c).after 5 t) = _
  rw [after2_5]
  unfold out2_5
  rw [View.canon_unit_zero zero_offsets]
  simp only [View.ld_unit_zero (S := S5000x128) zero_offsets, View.ld_unit_zero (S := S128x128) zero_offsets,
    View.ld_unit_zero (S := S1x128) zero_offsets]
  funext j
  obtain ⟨p, q, rfl⟩ : ∃ (p : Fin 5000) (q : Fin 128), j = ix2 p q := ⟨j 0, j 1, eq_ix2 (n0 := 5000) (n1 := 128) j⟩
  show k2_pay1 (F := Ideal) (iblk2 V c 0 t) (iblk2 V c 1 t) (iblk2 V c 2 t) (iblk2 V c 3 t) (iblk2 V c 4 t) (ix2 p q)
    = headG (V c main_v48) (V c main_v93) (V c main_v95) (V c main_v97) (V c main_v99) (((cfg2.win 5).blk t).view.emb (ix2 p q))
  rw [blk5_emb]
  refine (pay_apply (iblk2 V c 0 t) (iblk2 V c 1 t) (iblk2 V c 2 t) (iblk2 V c 3 t) (iblk2 V c 4 t) p q).trans ?_
  simp only [blk0_read, blk1_read, blk2_read, blk3_read, blk4_read]
  unfold headG
  refine congrArg (fun f => Spec.lsm f q) (funext fun l => ?_)
  unfold Spec.pad40 Spec.plogit
  by_cases h : l.val < 40
  · rw [if_pos h, dif_pos h]
  · rw [if_neg h, dif_neg h]

/-- An index of the array is in point `t`'s block iff each coordinate is in the block's range on its axis. -/
private theorem mem_blk5 (t : Fin cfg2.N) (i : S100000x128.Idx) :
    i ∈ ((cfg2.win 5).blk t).view.set ↔ ∀ a : Fin 2, win2_5.index t a * S5000x128.size a ≤ (i a).val ∧ (i a).val < win2_5.index t a * S5000x128.size a + S5000x128.size a := by
  show i ∈ ((View.whole main_v100).slice (win2_5.rect t)).set ↔ _
  rw [View.set_slice_whole, Rect.mem_set_unit]
  exact Iff.rfl

/-- Every index of the array is in some point's block: row `r` in that of point `r / 5000`. -/
private theorem cover (i : S100000x128.Idx) :
    ∃ t : Fin cfg2.N, (cfg2.win 5).flush t = true ∧ i ∈ ((cfg2.win 5).blk t).view.set := by
  have hi0 : (i 0).val < 100000 := (i 0).isLt
  have hi1 : (i 1).val < 128 := (i 1).isLt
  obtain ⟨t, ht⟩ : ∃ t : Fin cfg2.N, t.val = (i 0).val / 5000 :=
    ⟨⟨(i 0).val / 5000, by show (i 0).val / 5000 < grid2.N; rw [N_2]; omega⟩, rfl⟩
  obtain ⟨-, -, -, -, -, -, -, -, -, -, e0, e1⟩ := idx_facts t
  refine ⟨t, flush2_5 t, ?_⟩
  rw [mem_blk5]
  intro a
  match a with
  | ⟨0, _⟩ => show win2_5.index t (0 : Fin 2) * 5000 ≤ (i 0).val ∧ (i 0).val < win2_5.index t (0 : Fin 2) * 5000 + 5000; omega
  | ⟨1, _⟩ => show win2_5.index t (1 : Fin 2) * 128 ≤ (i 1).val ∧ (i 1).val < win2_5.index t (1 : Fin 2) * 128 + 128; omega

theorem region2_final (c : Dev nD) :
    (dat2 (F := Ideal) V c).arrAt 5 cfg2.N
      = headG (V c main_v48) (V c main_v93) (V c main_v95) (V c main_v97) (V c main_v99) :=
  (dat2 (F := Ideal) V c).arrAt_eq_of_cover 5 _ (fun t _ => flushed_eq V c t) cover

end Cert.KernelIdeal.HeadValue

end
-- ==== Proof.KernelPads.lean ====
import proofs.«431477_j5471788335195_4_alg».proof.Proof.Gen.KernelIdeal
import Idealize.ShloMosaic.Lib.Pipeline.Value
import Idealize.ShloMosaic.Lib.ValueIdx
import Idealize.ShloMosaic.Lib.ValueLayout
import Idealize.ShloMosaic.Lib.KernelVsHost

noncomputable section

namespace Cert.KernelIdeal.Pads

open Cert.KernelIdeal Cert.KernelIdeal.Facts₀ Cert.KernelIdeal.Facts Idealize.ShloMosaic Idealize.ShloMosaic.TcCoe Idealize.ShloMosaic.ValueIdx

variable {F : FTy → Type} [FloatOps F]

/-- The first half of the classifier's weights on 128 lanes: rows 0–127 of the 256×40 array, 88 zero lanes appended. -/
def w1pad (W : (⟨S256x40, .f32⟩ : BufTy).Contents (Elt F)) : (⟨S128x128, .f32⟩ : BufTy).Contents (Elt F) :=
  pad S128x128 ![0, 0] ![0, 88] ![0, 0] (extractStridedSlice S128x40 ![0, 0] W slices_S256x40_S128x40_0_0)
    (sitofp .f32 (constantI S_ 32 0#32)) pads_S128x40_S128x128_000_0880 h_S_

/-- The second half: rows 128–255, 88 zero lanes appended. -/
def w2pad (W : (⟨S256x40, .f32⟩ : BufTy).Contents (Elt F)) : (⟨S128x128, .f32⟩ : BufTy).Contents (Elt F) :=
  pad S128x128 ![0, 0] ![0, 88] ![0, 0] (extractStridedSlice S128x40 ![128, 0] W slices_S256x40_S128x40_128_0)
    (sitofp .f32 (constantI S_ 32 0#32)) pads_S128x40_S128x128_000_0880 h_S_

/-- The bias as one row of 128 lanes: the 40 entries, 88 zero lanes appended. -/
def bpad (b : (⟨S40, .f32⟩ : BufTy).Contents (Elt F)) : (⟨S1x128, .f32⟩ : BufTy).Contents (Elt F) :=
  pad S1x128 ![0, 0] ![0, 88] ![0, 0] (shapeCast S1x40 b shapeCasts_S40_S1x40)
    (sitofp .f32 (constantI S_ 32 0#32)) pads_S1x40_S1x128_000_0880 h_S_

/-- On the 40 real lanes the padded first half reads the weights' rows 0–127. -/
theorem w1pad_apply (W : (⟨S256x40, .f32⟩ : BufTy).Contents (Elt Ideal)) (k : Fin 128) (q : Fin 40) :
    w1pad (F := Ideal) W (ix2 k (⟨q.val, by omega⟩ : Fin 128)) = W (ix2 (⟨k.val, by omega⟩ : Fin 256) q) := by
  unfold w1pad
  refine (pad_apply_of_inside ![0, 0] ![0, 88] ![0, 0] _ _ pads_S128x40_S128x128_000_0880 h_S_
    (ix2 k (⟨q.val, by omega⟩ : Fin 128)) (ix2 k q) ?_).trans ?_
  · intro a
    match a with
    | ⟨0, _⟩ => show k.val = 0 + k.val * (0 + 1); omega
    | ⟨1, _⟩ => show q.val = 0 + q.val * (0 + 1); omega
  · refine extractStridedSlice_apply ![0, 0] W slices_S256x40_S128x40_0_0 (ix2 k q)
      (ix2 (⟨k.val, by omega⟩ : Fin 256) q) ?_
    intro a
    match a with
    | ⟨0, _⟩ => show k.val = 0 + k.val; omega
    | ⟨1, _⟩ => show q.val = 0 + q.val; omega

/-- On the 40 real lanes the padded second half reads the weights' rows 128–255. -/
theorem w2pad_apply (W : (⟨S256x40, .f32⟩ : BufTy).Contents (Elt Ideal)) (k : Fin 128) (q : Fin 40) :
    w2pad (F := Ideal) W (ix2 k (⟨q.val, by omega⟩ : Fin 128)) = W (ix2 (⟨128 + k.val, by omega⟩ : Fin 256) q) := by
  unfold w2pad
  refine (pad_apply_of_inside ![0, 0] ![0, 88] ![0, 0] _ _ pads_S128x40_S128x128_000_0880 h_S_
    (ix2 k (⟨q.val, by omega⟩ : Fin 128)) (ix2 k q) ?_).trans ?_
  · intro a
    match a with
    | ⟨0, _⟩ => show k.val = 0 + k.val * (0 + 1); omega
    | ⟨1, _⟩ => show q.val = 0 + q.val * (0 + 1); omega
  · refine extractStridedSlice_apply ![128, 0] W slices_S256x40_S128x40_128_0 (ix2 k q)
      (ix2 (⟨128 + k.val, by omega⟩ : Fin 256) q) ?_
    intro a
    match a with
    | ⟨0, _⟩ => show 128 + k.val = 128 + k.val; rfl
    | ⟨1, _⟩ => show q.val = 0 + q.val; omega

/-- On the 40 real lanes the padded bias row reads the bias. -/
theorem bpad_apply (b : (⟨S40, .f32⟩ : BufTy).Contents (Elt Ideal)) (q : Fin 40) :
    bpad (F := Ideal) b (ix2 (0 : Fin 1) (⟨q.val, by omega⟩ : Fin 128)) = b (ix1 q) := by
  unfold bpad
  refine (pad_apply_of_inside ![0, 0] ![0, 88] ![0, 0] _ _ pads_S1x40_S1x128_000_0880 h_S_
    (ix2 (0 : Fin 1) (⟨q.val, by omega⟩ : Fin 128)) (ix2 (0 : Fin 1) q) ?_).trans ?_
  · intro a
    match a with
    | ⟨0, _⟩ => show (0 : Nat) = 0 + 0 * (0 + 1); omega
    | ⟨1, _⟩ => show q.val = 0 + q.val * (0 + 1); omega
  · refine shapeCast_apply b shapeCasts_S40_S1x40 (ix2 (0 : Fin 1) q) (ix1 q) ?_
    rw [Shape.rowMajor_val_one, Shape.rowMajor_val_two]
    show q.val = 0 * 40 + q.val
    omega

end Cert.KernelIdeal.Pads

end
-- ==== Proof.HostChain.lean ====
/-
  The kernel program's host side, read against the reference's stages.

  Between its three kernel regions the kernel's @main applies to the regions' results exactly the host operations the
  reference applies to its own matrix products: the two edge lists cut out of the edge array, the graph convolution
  (degrees by a scatter-add of ones, their inverse square roots gathered at both ends of every edge, the gathered rows
  scaled and scatter-added, the self-loop term, the bias) and the relu, twice. So, once a region's array is known to be
  the reference's product of the same operands, the stretch of host operations after it ends at the reference's own
  stage of the arguments: the two sides are one term, operation by operation. The classifier's weights and bias the
  kernel lays out on 128 lanes; the last region then writes the 128-lane log-softmax, and the result is its first 40 lanes.
-/
import proofs.«431477_j5471788335195_4_alg».proof.Proof.Gen.KernelIdeal.Frame
import proofs.«431477_j5471788335195_4_alg».proof.Proof.RefRead
import proofs.«431477_j5471788335195_4_alg».proof.Proof.MatmulValue
import proofs.«431477_j5471788335195_4_alg».proof.Proof.HeadValue
import proofs.«431477_j5471788335195_4_alg».proof.Proof.KernelPads

set_option maxRecDepth 16384

noncomputable section

namespace Cert.KernelIdeal.HostChain

open Cert.KernelIdeal Cert.KernelIdeal.Gen
open Idealize.ShloMosaic Idealize.ShloMosaic.TcCoe Idealize.SL.Sem Idealize.ShloMosaic.StableHlo Idealize.ShloMosaic.ValueIdx
open Cert.ReferenceIdeal.ReadP (val_main_v1 val_main_v3 val_main_v4 val_main_v48 val_main_v49 val_main_v93 val_main_v4_apply lidx_main_v4 ridx_main_v4)

/-! ## Each stretch of host operations, from any valuation that holds the stages it reads -/

section Stretches

variable {F : FTy → Type} [FloatOps F] [Named F]

/-- The two edge lists: rows 0 and 1 of the edge array, each reshaped to a vector. -/
theorem edges (W : Valuation τ sig (Elt F)) (x1 : (⟨S2x1600000, .i32⟩ : BufTy).Contents (Elt F))
    (h : W (Proc.devRef .tc main_arg1) = x1) :
    after hostOps0 W (Proc.devRef .tc main_v1) = val_main_v1 (F := F) x1
    ∧ after hostOps0 W (Proc.devRef .tc main_v3) = val_main_v3 (F := F) x1 := by
  constructor
  · dsimp only [hostOps0]; after_results_simp; rw [h]; rfl
  · dsimp only [hostOps0]; after_results_simp; rw [h]; rfl

/-- The first graph convolution and its relu, from the first product. -/
theorem layer1 (W : Valuation τ sig (Elt F)) (x0 : (⟨S100000x128, .f32⟩ : BufTy).Contents (Elt F))
    (x1 : (⟨S2x1600000, .i32⟩ : BufTy).Contents (Elt F)) (x2 : (⟨S128x128, .f32⟩ : BufTy).Contents (Elt F))
    (x3 : (⟨S128, .f32⟩ : BufTy).Contents (Elt F))
    (h4 : W (Proc.devRef .tc main_v4) = val_main_v4 (F := F) x0 x2)
    (h1 : W (Proc.devRef .tc main_v1) = val_main_v1 (F := F) x1)
    (h3 : W (Proc.devRef .tc main_v3) = val_main_v3 (F := F) x1)
    (hb : W (Proc.devRef .tc main_arg3) = x3) :
    after hostOps1_1 (after hostOps1 W) (Proc.devRef .tc main_v48) = val_main_v48 (F := F) x0 x1 x2 x3 := by
  dsimp only [hostOps1_1, hostOps1]
  after_results_simp
  rw [h4, h1, h3, hb]
  rfl

/-- The second graph convolution and its relu, from the second product. -/
theorem layer2 (W : Valuation τ sig (Elt F)) (x0 : (⟨S100000x128, .f32⟩ : BufTy).Contents (Elt F))
    (x1 : (⟨S2x1600000, .i32⟩ : BufTy).Contents (Elt F)) (x2 : (⟨S128x128, .f32⟩ : BufTy).Contents (Elt F))
    (x3 : (⟨S128, .f32⟩ : BufTy).Contents (Elt F)) (x4 : (⟨S128x128, .f32⟩ : BufTy).Contents (Elt F))
    (x5 : (⟨S128, .f32⟩ : BufTy).Contents (Elt F))
    (h49 : W (Proc.devRef .tc main_v49) = val_main_v49 (F := F) x0 x1 x2 x3 x4)
    (h1 : W (Proc.devRef .tc main_v1) = val_main_v1 (F := F) x1)
    (h3 : W (Proc.devRef .tc main_v3) = val_main_v3 (F := F) x1)
    (hb : W (Proc.devRef .tc main_arg5) = x5) :
    after hostOps2_1 (after hostOps2 W) (Proc.devRef .tc main_v93) = val_main_v93 (F := F) x0 x1 x2 x3 x4 x5 := by
  dsimp only [hostOps2_1, hostOps2]
  after_results_simp
  rw [h49, h1, h3, hb]
  rfl

/-- The classifier's weights and bias laid out on 128 lanes. -/
theorem pad1 (W : Valuation τ sig (Elt F)) :
    after hostOps2_3 (after hostOps2_2 W) (Proc.devRef .tc main_v95) = Pads.w1pad (F := F) (W (Proc.devRef .tc main_arg6)) := by
  dsimp only [hostOps2_3, hostOps2_2]; after_results_simp; rfl
theorem pad2 (W : Valuation τ sig (Elt F)) :
    after hostOps2_5 (after hostOps2_4 W) (Proc.devRef .tc main_v97) = Pads.w2pad (F := F) (W (Proc.devRef .tc main_arg6)) := by
  dsimp only [hostOps2_5, hostOps2_4]; after_results_simp; rfl
theorem pad3 (W : Valuation τ sig (Elt F)) :
    after hostOps2_7 (after hostOps2_6 W) (Proc.devRef .tc main_v99) = Pads.bpad (F := F) (W (Proc.devRef .tc main_arg7)) := by
  dsimp only [hostOps2_7, hostOps2_6]; after_results_simp; rfl

/-- The buffers a stretch does not write it leaves as they were. -/
theorem keep0 (W : Valuation τ sig (Elt F)) :
    after hostOps0 W (Proc.devRef .tc main_arg0) = W (Proc.devRef .tc main_arg0)
    ∧ after hostOps0 W (Proc.devRef .tc main_arg2) = W (Proc.devRef .tc main_arg2)
    ∧ after hostOps0 W (Proc.devRef .tc main_arg3) = W (Proc.devRef .tc main_arg3)
    ∧ after hostOps0 W (Proc.devRef .tc main_arg4) = W (Proc.devRef .tc main_arg4)
    ∧ after hostOps0 W (Proc.devRef .tc main_arg5) = W (Proc.devRef .tc main_arg5)
    ∧ after hostOps0 W (Proc.devRef .tc main_arg6) = W (Proc.devRef .tc main_arg6)
    ∧ after hostOps0 W (Proc.devRef .tc main_arg7) = W (Proc.devRef .tc main_arg7) := by
  refine ⟨?_, ?_, ?_, ?_, ?_, ?_, ?_⟩ <;> (dsimp only [hostOps0]; after_results_simp)
theorem keep1 (W : Valuation τ sig (Elt F)) :
    after hostOps1_1 (after hostOps1 W) (Proc.devRef .tc main_v1) = W (Proc.devRef .tc main_v1)
    ∧ after hostOps1_1 (after hostOps1 W) (Proc.devRef .tc main_v3) = W (Proc.devRef .tc main_v3)
    ∧ after hostOps1_1 (after hostOps1 W) (Proc.devRef .tc main_arg4) = W (Proc.devRef .tc main_arg4)
    ∧ after hostOps1_1 (after hostOps1 W) (Proc.devRef .tc main_arg5) = W (Proc.devRef .tc main_arg5)
    ∧ after hostOps1_1 (after hostOps1 W) (Proc.devRef .tc main_arg6) = W (Proc.devRef .tc main_arg6)
    ∧ after hostOps1_1 (after hostOps1 W) (Proc.devRef .tc main_arg7) = W (Proc.devRef .tc main_arg7) := by
  refine ⟨?_, ?_, ?_, ?_, ?_, ?_⟩ <;> (dsimp only [hostOps1_1, hostOps1]; after_results_simp)
theorem keep2 (W : Valuation τ sig (Elt F)) :
    after hostOps2_1 (after hostOps2 W) (Proc.devRef .tc main_v48) = W (Proc.devRef .tc main_v48)
    ∧ after hostOps2_1 (after hostOps2 W) (Proc.devRef .tc main_arg6) = W (Proc.devRef .tc main_arg6)
    ∧ after hostOps2_1 (after hostOps2 W) (Proc.devRef .tc main_arg7) = W (Proc.devRef .tc main_arg7) := by
  refine ⟨?_, ?_, ?_⟩ <;> (dsimp only [hostOps2_1, hostOps2]; after_results_simp)
theorem keepP1 (W : Valuation τ sig (Elt F)) :
    after hostOps2_3 (after hostOps2_2 W) (Proc.devRef .tc main_v48) = W (Proc.devRef .tc main_v48)
    ∧ after hostOps2_3 (after hostOps2_2 W) (Proc.devRef .tc main_v93) = W (Proc.devRef .tc main_v93)
    ∧ after hostOps2_3 (after hostOps2_2 W) (Proc.devRef .tc main_arg6) = W (Proc.devRef .tc main_arg6)
    ∧ after hostOps2_3 (after hostOps2_2 W) (Proc.devRef .tc main_arg7) = W (Proc.devRef .tc main_arg7) := by
  refine ⟨?_, ?_, ?_, ?_⟩ <;> (dsimp only [hostOps2_3, hostOps2_2]; after_results_simp)
theorem keepP2 (W : Valuation τ sig (Elt F)) :
    after hostOps2_5 (after hostOps2_4 W) (Proc.devRef .tc main_v48) = W (Proc.devRef .tc main_v48)
    ∧ after hostOps2_5 (after hostOps2_4 W) (Proc.devRef .tc main_v93) = W (Proc.devRef .tc main_v93)
    ∧ after hostOps2_5 (after hostOps2_4 W) (Proc.devRef .tc main_v95) = W (Proc.devRef .tc main_v95)
    ∧ after hostOps2_5 (after hostOps2_4 W) (Proc.devRef .tc main_arg7) = W (Proc.devRef .tc main_arg7) := by
  refine ⟨?_, ?_, ?_, ?_⟩ <;> (dsimp only [hostOps2_5, hostOps2_4]; after_results_simp)
theorem keepP3 (W : Valuation τ sig (Elt F)) :
    after hostOps2_7 (after hostOps2_6 W) (Proc.devRef .tc main_v48) = W (Proc.devRef .tc main_v48)
    ∧ after hostOps2_7 (after hostOps2_6 W) (Proc.devRef .tc main_v93) = W (Proc.devRef .tc main_v93)
    ∧ after hostOps2_7 (after hostOps2_6 W) (Proc.devRef .tc main_v95) = W (Proc.devRef .tc main_v95)
    ∧ after hostOps2_7 (after hostOps2_6 W) (Proc.devRef .tc main_v97) = W (Proc.devRef .tc main_v97) := by
  refine ⟨?_, ?_, ?_, ?_⟩ <;> (dsimp only [hostOps2_7, hostOps2_6]; after_results_simp)

/-- The result is the first 40 lanes of the last region's array. -/
theorem lanes40 (W : Valuation τ sig (Elt F)) :
    after hostOps3 W (Proc.devRef .tc main_v101)
      = extractStridedSlice S100000x40 ![0, 0] (W (Proc.devRef .tc main_v100)) Facts₀.slices_S100000x128_S100000x40_0_0 := by
  dsimp only [hostOps3]; after_results_simp

end Stretches

/-! ## The kernel's product regions are the reference's products -/

/-- Entry by entry the region's product is the host's `dot_general` of the same operands. -/
theorem mmG_eq (x : (⟨S100000x128, .f32⟩ : BufTy).Contents (Elt Ideal)) (w : (⟨S128x128, .f32⟩ : BufTy).Contents (Elt Ideal)) :
    MatmulValue.mmG x w = val_main_v4 (F := Ideal) x w := by
  funext y
  rw [val_main_v4_apply]
  unfold MatmulValue.mmG
  refine Finset.sum_congr rfl fun k _ => ?_
  have e1 : ix2 (n0 := 100000) (n1 := 128) (y 0) k = lidx_main_v4 y k :=
    funext fun a => by match a with | ⟨0, _⟩ => rfl | ⟨1, _⟩ => rfl
  have e2 : ix2 (n0 := 128) (n1 := 128) k (y 1) = ridx_main_v4 y k :=
    funext fun a => by match a with | ⟨0, _⟩ => rfl | ⟨1, _⟩ => rfl
  rw [e1, e2]

/-! ## The run: what each boundary of @main's segments holds, on the ideal values -/

section Run

variable (m : (ℓ : Loc nD τ sig) → Buf (Elt Ideal) ℓ) (ρ : Dev nD → PrngReg) (c : Dev nD)

/-- The classifier's inputs as the last region finds them, in the reference's stages of the launch arguments. -/
theorem at_head :
    W13 m ρ c (Proc.devRef .tc main_v48) = val_main_v48 (F := Ideal) (m ((c : Thread nD τ).loc main_arg0)) (m ((c : Thread nD τ).loc main_arg1)) (m ((c : Thread nD τ).loc main_arg2)) (m ((c : Thread nD τ).loc main_arg3))
    ∧ W13 m ρ c (Proc.devRef .tc main_v93) = val_main_v93 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
    ∧ W13 m ρ c (Proc.devRef .tc main_v95) = Pads.w1pad (F := Ideal) (m ((c : Thread nD τ).loc main_arg6))
    ∧ W13 m ρ c (Proc.devRef .tc main_v97) = Pads.w2pad (F := Ideal) (m ((c : Thread nD τ).loc main_arg6))
    ∧ W13 m ρ c (Proc.devRef .tc main_v99) = Pads.bpad (F := Ideal) (m ((c : Thread nD τ).loc main_arg7)) := by
  -- region 0's entry: the edge lists, the arguments as launched
  obtain ⟨e1, e3⟩ := edges (W0 m ρ c) (m ((c : Thread nD τ).loc main_arg1)) rfl
  obtain ⟨k00, k02, k03, k04, k05, k06, k07⟩ := keep0 (W0 m ρ c)
  -- region 0's exit: the first product
  have p4 : W2 m ρ c (Proc.devRef .tc main_v4) = val_main_v4 (F := Ideal) (m ((c : Thread nD τ).loc main_arg0)) (m ((c : Thread nD τ).loc main_arg2)) :=
    (W2_arr m ρ c 2).trans ((MatmulValue.region0_final (V1 m ρ) c).trans
      ((mmG_eq _ _).trans (by rw [show V1 m ρ c main_arg0 = _ from k00, show V1 m ρ c main_arg2 = _ from k02])))
  have n2 : ∀ b : Ref sig .tc, (∀ w, Pipeline.arrRef spec0 w ≠ b) → W2 m ρ c (Proc.devRef .tc b) = W1 m ρ c (Proc.devRef .tc b) :=
    fun b hb => W2_of_ne m ρ c b hb
  -- region 1's entry: the first hidden layer
  have h48 : W4 m ρ c (Proc.devRef .tc main_v48) = val_main_v48 (F := Ideal) (m ((c : Thread nD τ).loc main_arg0)) (m ((c : Thread nD τ).loc main_arg1)) (m ((c : Thread nD τ).loc main_arg2)) (m ((c : Thread nD τ).loc main_arg3)) :=
    layer1 (W2 m ρ c) _ _ _ _ p4 ((n2 main_v1 (by decide)).trans e1) ((n2 main_v3 (by decide)).trans e3)
      ((n2 main_arg3 (by decide)).trans k03)
  obtain ⟨k11, k13, k14, k15, k16, k17⟩ := keep1 (W2 m ρ c)
  -- region 1's exit: the second product
  have p49 : W5 m ρ c (Proc.devRef .tc main_v49) = val_main_v49 (F := Ideal) (m ((c : Thread nD τ).loc main_arg0)) (m ((c : Thread nD τ).loc main_arg1)) (m ((c : Thread nD τ).loc main_arg2)) (m ((c : Thread nD τ).loc main_arg3)) (m ((c : Thread nD τ).loc main_arg4)) :=
    (W5_arr m ρ c 2).trans ((MatmulValue.region1_final (V4 m ρ) c).trans
      ((mmG_eq _ _).trans (by
        rw [show V4 m ρ c main_v48 = _ from h48, show V4 m ρ c main_arg4 = _ from k14.trans ((n2 main_arg4 (by decide)).trans k04)]; rfl)))
  have n5 : ∀ b : Ref sig .tc, (∀ w, Pipeline.arrRef spec1 w ≠ b) → W5 m ρ c (Proc.devRef .tc b) = W4 m ρ c (Proc.devRef .tc b) :=
    fun b hb => W5_of_ne m ρ c b hb
  have i48 : W5 m ρ c (Proc.devRef .tc main_v48) = W4 m ρ c (Proc.devRef .tc main_v48) :=
    (W5_arr m ρ c 0).trans (((dat1 (V4 m ρ) c).arrAt_in 0 rfl _).trans (A_eq1 (V4 m ρ) c 0))
  -- the second hidden layer
  have h93 : W7 m ρ c (Proc.devRef .tc main_v93) = val_main_v93 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
    layer2 (W5 m ρ c) _ _ _ _ _ _ p49
      ((n5 main_v1 (by decide)).trans (k11.trans ((n2 main_v1 (by decide)).trans e1)))
      ((n5 main_v3 (by decide)).trans (k13.trans ((n2 main_v3 (by decide)).trans e3)))
      ((n5 main_arg5 (by decide)).trans (k15.trans ((n2 main_arg5 (by decide)).trans k05)))
  obtain ⟨k248, k26, k27⟩ := keep2 (W5 m ρ c)
  have a6 : W7 m ρ c (Proc.devRef .tc main_arg6) = (m ((c : Thread nD τ).loc main_arg6)) :=
    k26.trans ((n5 main_arg6 (by decide)).trans (k16.trans ((n2 main_arg6 (by decide)).trans k06)))
  have a7 : W7 m ρ c (Proc.devRef .tc main_arg7) = (m ((c : Thread nD τ).loc main_arg7)) :=
    k27.trans ((n5 main_arg7 (by decide)).trans (k17.trans ((n2 main_arg7 (by decide)).trans k07)))
  have g48 : W7 m ρ c (Proc.devRef .tc main_v48) = _ := k248.trans (i48.trans h48)
  -- the classifier's weights and bias on 128 lanes
  obtain ⟨q148, q193, q16, q17⟩ := keepP1 (W7 m ρ c)
  obtain ⟨q248, q293, q295, q27⟩ := keepP2 (W9 m ρ c)
  obtain ⟨q348, q393, q395, q397⟩ := keepP3 (W11 m ρ c)
  refine ⟨q348.trans (q248.trans (q148.trans g48)), q393.trans (q293.trans (q193.trans h93)), ?_, ?_, ?_⟩
  · exact q395.trans (q295.trans ((pad1 (W7 m ρ c)).trans (congrArg Pads.w1pad a6)))
  · exact q397.trans ((pad2 (W9 m ρ c)).trans (congrArg Pads.w2pad (q16.trans a6)))
  · exact (pad3 (W11 m ρ c)).trans (congrArg Pads.bpad (q27.trans (q17.trans a7)))

/-- The kernel's result: the first 40 lanes of the 128-lane log-softmax of the classifier applied to the two hidden
    layers, all in the reference's stages of the launch arguments. -/
theorem result :
    W15 m ρ c (Proc.devRef .tc main_v101)
      = extractStridedSlice S100000x40 ![0, 0]
          (HeadValue.headG
            (val_main_v48 (F := Ideal) (m ((c : Thread nD τ).loc main_arg0)) (m ((c : Thread nD τ).loc main_arg1)) (m ((c : Thread nD τ).loc main_arg2)) (m ((c : Thread nD τ).loc main_arg3)))
            (val_main_v93 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)))
            (Pads.w1pad (F := Ideal) (m ((c : Thread nD τ).loc main_arg6))) (Pads.w2pad (F := Ideal) (m ((c : Thread nD τ).loc main_arg6))) (Pads.bpad (F := Ideal) (m ((c : Thread nD τ).loc main_arg7))))
          Facts₀.slices_S100000x128_S100000x40_0_0 := by
  obtain ⟨h48, h93, h95, h97, h99⟩ := at_head m ρ c
  refine (lanes40 (W14 m ρ c)).trans ?_
  refine congrArg (fun X : (⟨S100000x128, .f32⟩ : BufTy).Contents (Elt Ideal) => extractStridedSlice S100000x40 ![0, 0] X Facts₀.slices_S100000x128_S100000x40_0_0) ?_
  refine (W14_arr m ρ c 5).trans ((HeadValue.region2_final (V13 m ρ) c).trans ?_)
  rw [show V13 m ρ c main_v48 = _ from h48, show V13 m ρ c main_v93 = _ from h93, show V13 m ρ c main_v95 = _ from h95,
    show V13 m ρ c main_v97 = _ from h97, show V13 m ρ c main_v99 = _ from h99]

end Run

end Cert.KernelIdeal.HostChain

end
-- ==== Proof.RefStages.lean ====
/-
  The reference program's run, stage by stage. Its @main is a straight line of 138 host operations; the run leaves every
  buffer at the fold of the operations over the launch contents. Cut into stretches — the two edge lists and the
  first product; the first graph convolution with its relu; the second product; the second convolution with its relu;
  the classifier; its log-softmax in four steps — the fold at the result buffer is the last stage `val_main_v99` of the eight
  arguments: each stretch takes the stages it reads as hypotheses on the valuation it starts from and returns the stage
  it writes, and the buffers a later stretch still reads are carried through unchanged.
-/
import proofs.«431477_j5471788335195_4_alg».proof.Proof.RefRead
import Idealize.ShloMosaic.Lib.Pipeline.Frame

set_option maxRecDepth 16384

noncomputable section

namespace Cert.ReferenceIdeal.Stages

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

variable {F : FTy → Type} [FloatOps F]

/-- The stretches of the operation list. -/
abbrev opsA : List (HloOp τ sig (Elt F)) := (ops (F := F)).take 5
abbrev opsB : List (HloOp τ sig (Elt F)) := ((ops (F := F)).drop 5).take 56
abbrev opsC : List (HloOp τ sig (Elt F)) := ((ops (F := F)).drop 61).take 1
abbrev opsD : List (HloOp τ sig (Elt F)) := ((ops (F := F)).drop 62).take 56
abbrev opsE : List (HloOp τ sig (Elt F)) := ((ops (F := F)).drop 118).take 5
abbrev opsG : List (HloOp τ sig (Elt F)) := ((ops (F := F)).drop 123).take 5
abbrev opsH : List (HloOp τ sig (Elt F)) := ((ops (F := F)).drop 128).take 3
abbrev opsI : List (HloOp τ sig (Elt F)) := ((ops (F := F)).drop 131).take 3
abbrev opsJ : List (HloOp τ sig (Elt F)) := (ops (F := F)).drop 134

theorem ops_split : (ops (F := F)) = opsA ++ (opsB ++ (opsC ++ (opsD ++ (opsE ++ (opsG ++ (opsH ++ (opsI ++ opsJ))))))) := by
  simp only [opsA, opsB, opsC, opsD, opsE, opsG, opsH, opsI, opsJ]
  rw [show (List.drop 134 (ops (F := F))) = List.drop 3 (List.drop 131 ops) from by rw [List.drop_drop],
    List.take_append_drop,
    show (List.drop 131 (ops (F := F))) = List.drop 3 (List.drop 128 ops) from by rw [List.drop_drop],
    List.take_append_drop,
    show (List.drop 128 (ops (F := F))) = List.drop 5 (List.drop 123 ops) from by rw [List.drop_drop],
    List.take_append_drop,
    show (List.drop 123 (ops (F := F))) = List.drop 5 (List.drop 118 ops) from by rw [List.drop_drop],
    List.take_append_drop,
    show (List.drop 118 (ops (F := F))) = List.drop 56 (List.drop 62 ops) from by rw [List.drop_drop],
    List.take_append_drop,
    show (List.drop 62 (ops (F := F))) = List.drop 1 (List.drop 61 ops) from by rw [List.drop_drop],
    List.take_append_drop,
    show (List.drop 61 (ops (F := F))) = List.drop 56 (List.drop 5 ops) from by rw [List.drop_drop],
    List.take_append_drop, List.take_append_drop]

theorem after_ops (V : Valuation τ sig (Elt F)) :
    after (ops (F := F)) V
      = after opsJ (after opsI (after opsH (after opsG (after opsE (after opsD (after opsC (after opsB (after opsA V)))))))) := by
  rw [ops_split, StableHlo.after_append, StableHlo.after_append, StableHlo.after_append, StableHlo.after_append, StableHlo.after_append,
    StableHlo.after_append, StableHlo.after_append, StableHlo.after_append]

/-! ## The stretches, from any valuation that holds the stages they read -/

/-- Opens a stretch into its literal operations and reads the fold at one buffer. -/
local macro "open_stretch" : tactic =>
  `(tactic| (simp only [opsA, opsB, opsC, opsD, opsE, opsG, opsH, opsI, opsJ, ops, List.drop_succ_cons, List.drop_zero, List.take_succ_cons, List.take_zero]
             after_results_simp))

variable (W : Valuation τ sig (Elt F))
variable (x0 : (⟨S100000x128, .f32⟩ : BufTy).Contents (Elt F)) (x1 : (⟨S2x1600000, .i32⟩ : BufTy).Contents (Elt F))
  (x2 : (⟨S128x128, .f32⟩ : BufTy).Contents (Elt F)) (x3 : (⟨S128, .f32⟩ : BufTy).Contents (Elt F))
  (x4 : (⟨S128x128, .f32⟩ : BufTy).Contents (Elt F)) (x5 : (⟨S128, .f32⟩ : BufTy).Contents (Elt F))
  (x6 : (⟨S256x40, .f32⟩ : BufTy).Contents (Elt F)) (x7 : (⟨S40, .f32⟩ : BufTy).Contents (Elt F))

/-- A typed reference's two transports (contents at the value's type as contents of the buffer, and back) undo each other. -/
theorem ofBuf_toBuf {T : BufTy} (x : TRef sig T) (v : T.Contents (Elt F)) : x.ofBuf (x.toBuf v) = v := by
  obtain ⟨r, h, _, _⟩ := x
  subst h
  rfl

/-- The edge lists and the first product. -/
theorem stretchA (h0 : W (Proc.devRef .tc main_arg0) = x0) (h1 : W (Proc.devRef .tc main_arg1) = x1) (h2 : W (Proc.devRef .tc main_arg2) = x2) :
    after opsA W (Proc.devRef .tc main_v1) = val_main_v1 (F := F) x1
    ∧ after opsA W (Proc.devRef .tc main_v3) = val_main_v3 (F := F) x1
    ∧ after opsA W (Proc.devRef .tc main_v4) = val_main_v4 (F := F) x0 x2 := by
  refine ⟨?_, ?_, ?_⟩
  · open_stretch; rw [h1]; rfl
  · open_stretch; rw [h1]; rfl
  · open_stretch; rw [h0, h2]; rfl

theorem keepA :
    after opsA W (Proc.devRef .tc main_arg3) = W (Proc.devRef .tc main_arg3)
    ∧ after opsA W (Proc.devRef .tc main_arg4) = W (Proc.devRef .tc main_arg4)
    ∧ after opsA W (Proc.devRef .tc main_arg5) = W (Proc.devRef .tc main_arg5)
    ∧ after opsA W (Proc.devRef .tc main_arg6) = W (Proc.devRef .tc main_arg6)
    ∧ after opsA W (Proc.devRef .tc main_arg7) = W (Proc.devRef .tc main_arg7) := by
  refine ⟨?_, ?_, ?_, ?_, ?_⟩ <;> open_stretch

/-- The first graph convolution and its relu. -/
theorem stretchB (h4 : W (Proc.devRef .tc main_v4) = val_main_v4 (F := F) x0 x2) (h1 : W (Proc.devRef .tc main_v1) = val_main_v1 (F := F) x1)
    (h3 : W (Proc.devRef .tc main_v3) = val_main_v3 (F := F) x1) (hb : W (Proc.devRef .tc main_arg3) = x3) :
    after opsB W (Proc.devRef .tc main_v48) = val_main_v48 (F := F) x0 x1 x2 x3 := by
  open_stretch; rw [h4, h1, h3, hb]; rfl

theorem keepB :
    after opsB W (Proc.devRef .tc main_v1) = W (Proc.devRef .tc main_v1)
    ∧ after opsB W (Proc.devRef .tc main_v3) = W (Proc.devRef .tc main_v3)
    ∧ after opsB W (Proc.devRef .tc main_arg4) = W (Proc.devRef .tc main_arg4)
    ∧ after opsB W (Proc.devRef .tc main_arg5) = W (Proc.devRef .tc main_arg5)
    ∧ after opsB W (Proc.devRef .tc main_arg6) = W (Proc.devRef .tc main_arg6)
    ∧ after opsB W (Proc.devRef .tc main_arg7) = W (Proc.devRef .tc main_arg7) := by
  refine ⟨?_, ?_, ?_, ?_, ?_, ?_⟩ <;> open_stretch

/-- The second product. -/
theorem stretchC (h48 : W (Proc.devRef .tc main_v48) = val_main_v48 (F := F) x0 x1 x2 x3) (h4 : W (Proc.devRef .tc main_arg4) = x4) :
    after opsC W (Proc.devRef .tc main_v49) = val_main_v49 (F := F) x0 x1 x2 x3 x4 := by
  open_stretch; rw [h48, h4]; rfl

theorem keepC :
    after opsC W (Proc.devRef .tc main_v1) = W (Proc.devRef .tc main_v1)
    ∧ after opsC W (Proc.devRef .tc main_v3) = W (Proc.devRef .tc main_v3)
    ∧ after opsC W (Proc.devRef .tc main_v48) = W (Proc.devRef .tc main_v48)
    ∧ after opsC W (Proc.devRef .tc main_arg5) = W (Proc.devRef .tc main_arg5)
    ∧ after opsC W (Proc.devRef .tc main_arg6) = W (Proc.devRef .tc main_arg6)
    ∧ after opsC W (Proc.devRef .tc main_arg7) = W (Proc.devRef .tc main_arg7) := by
  refine ⟨?_, ?_, ?_, ?_, ?_, ?_⟩ <;> open_stretch

/-- The second graph convolution and its relu. -/
theorem stretchD (h49 : W (Proc.devRef .tc main_v49) = val_main_v49 (F := F) x0 x1 x2 x3 x4) (h1 : W (Proc.devRef .tc main_v1) = val_main_v1 (F := F) x1)
    (h3 : W (Proc.devRef .tc main_v3) = val_main_v3 (F := F) x1) (hb : W (Proc.devRef .tc main_arg5) = x5) :
    after opsD W (Proc.devRef .tc main_v93) = val_main_v93 (F := F) x0 x1 x2 x3 x4 x5 := by
  open_stretch; rw [h49, h1, h3, hb]; rfl

theorem keepD :
    after opsD W (Proc.devRef .tc main_v48) = W (Proc.devRef .tc main_v48)
    ∧ after opsD W (Proc.devRef .tc main_arg6) = W (Proc.devRef .tc main_arg6)
    ∧ after opsD W (Proc.devRef .tc main_arg7) = W (Proc.devRef .tc main_arg7) := by
  refine ⟨?_, ?_, ?_⟩ <;> open_stretch

/-- The classifier: the two hidden layers side by side against the weights, plus the bias. -/
theorem stretchE (h48 : W (Proc.devRef .tc main_v48) = val_main_v48 (F := F) x0 x1 x2 x3)
    (h93 : W (Proc.devRef .tc main_v93) = val_main_v93 (F := F) x0 x1 x2 x3 x4 x5)
    (h6 : W (Proc.devRef .tc main_arg6) = x6) (h7 : W (Proc.devRef .tc main_arg7) = x7) :
    after opsE W (Proc.devRef .tc main_v98) = val_main_v98 (F := F) x0 x1 x2 x3 x4 x5 x6 x7 := by
  open_stretch; rw [h48, h93, h6, h7]; rfl

/-- The log-softmax of the logits, in four steps: the row maxima; -/
theorem stretchG (h98 : W (Proc.devRef .tc main_v98) = val_main_v98 (F := F) x0 x1 x2 x3 x4 x5 x6 x7) :
    after opsG W (Proc.devRef .tc main_call2_v2) = val_main_call2_v2 (F := F) x0 x1 x2 x3 x4 x5 x6 x7
    ∧ after opsG W (Proc.devRef .tc main_v98) = W (Proc.devRef .tc main_v98) := by
  refine ⟨?_, ?_⟩
  · open_stretch; rw [h98]; simp only [ofBuf_toBuf]; rfl
  · open_stretch

/-- the logits shifted by their row maximum; -/
theorem stretchH (h98 : W (Proc.devRef .tc main_v98) = val_main_v98 (F := F) x0 x1 x2 x3 x4 x5 x6 x7)
    (h2 : W (Proc.devRef .tc main_call2_v2) = val_main_call2_v2 (F := F) x0 x1 x2 x3 x4 x5 x6 x7) :
    after opsH W (Proc.devRef .tc main_call2_v5) = val_main_call2_v5 (F := F) x0 x1 x2 x3 x4 x5 x6 x7 := by
  open_stretch; rw [h98, h2]; rfl

/-- the row sums of their exponentials; -/
theorem stretchI (h5 : W (Proc.devRef .tc main_call2_v5) = val_main_call2_v5 (F := F) x0 x1 x2 x3 x4 x5 x6 x7) :
    after opsI W (Proc.devRef .tc main_call2_v7) = val_main_call2_v7 (F := F) x0 x1 x2 x3 x4 x5 x6 x7
    ∧ after opsI W (Proc.devRef .tc main_call2_v5) = W (Proc.devRef .tc main_call2_v5) := by
  refine ⟨?_, ?_⟩
  · open_stretch; rw [h5]; rfl
  · open_stretch

/-- the shifted logits less the logarithm of those sums. -/
theorem stretchJ (h5 : W (Proc.devRef .tc main_call2_v5) = val_main_call2_v5 (F := F) x0 x1 x2 x3 x4 x5 x6 x7)
    (h7 : W (Proc.devRef .tc main_call2_v7) = val_main_call2_v7 (F := F) x0 x1 x2 x3 x4 x5 x6 x7) :
    after opsJ W (Proc.devRef .tc main_v99) = val_main_v99 (F := F) x0 x1 x2 x3 x4 x5 x6 x7 := by
  open_stretch; rw [h5, h7]; rfl

/-! ## The fold at the result buffer is the last stage of the arguments -/

theorem fold_result (m : (ℓ : Loc nD τ sig) → Buf (Elt F) ℓ) (c : Dev nD) :
    after (ops (F := F)) (launchContents m c) (Proc.devRef .tc main_v99)
      = val_main_v99 (F := F) (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
          (m ((c.tc : Thread nD τ).loc main_arg5)) (m ((c.tc : Thread nD τ).loc main_arg6)) (m ((c.tc : Thread nD τ).loc main_arg7)) := by
  rw [after_ops]
  obtain ⟨a1, a3, a4⟩ := stretchA (launchContents m c) _ _ _ rfl rfl rfl
  obtain ⟨ka3, ka4, ka5, ka6, ka7⟩ := keepA (F := F) (launchContents m c)
  have b48 := stretchB (after opsA (launchContents m c)) _ _ _ _ a4 a1 a3 ka3
  obtain ⟨kb1, kb3, kb4, kb5, kb6, kb7⟩ := keepB (F := F) (after opsA (launchContents m c))
  have c49 := stretchC (after opsB (after opsA (launchContents m c))) _ _ _ _ _ b48 (kb4.trans ka4)
  obtain ⟨kc1, kc3, kc48, kc5, kc6, kc7⟩ := keepC (F := F) (after opsB (after opsA (launchContents m c)))
  have d93 := stretchD (after opsC (after opsB (after opsA (launchContents m c)))) _ _ _ _ _ _ c49
    (kc1.trans (kb1.trans a1)) (kc3.trans (kb3.trans a3)) (kc5.trans (kb5.trans ka5))
  obtain ⟨kd48, kd6, kd7⟩ := keepD (F := F) (after opsC (after opsB (after opsA (launchContents m c))))
  have e98 := stretchE (after opsD (after opsC (after opsB (after opsA (launchContents m c))))) _ _ _ _ _ _ _ _
    (kd48.trans (kc48.trans b48)) d93 (kd6.trans (kc6.trans (kb6.trans ka6))) (kd7.trans (kc7.trans (kb7.trans ka7)))
  obtain ⟨g2, g98⟩ := stretchG (after opsE (after opsD (after opsC (after opsB (after opsA (launchContents m c)))))) _ _ _ _ _ _ _ _ e98
  have h5 := stretchH (after opsG (after opsE (after opsD (after opsC (after opsB (after opsA (launchContents m c))))))) _ _ _ _ _ _ _ _
    (g98.trans e98) g2
  obtain ⟨i7, i5⟩ := stretchI (after opsH (after opsG (after opsE (after opsD (after opsC (after opsB (after opsA (launchContents m c)))))))) _ _ _ _ _ _ _ _ h5
  exact stretchJ (after opsI (after opsH (after opsG (after opsE (after opsD (after opsC (after opsB (after opsA (launchContents m c))))))))) _ _ _ _ _ _ _ _
    (i5.trans h5) i7

end Cert.ReferenceIdeal.Stages

end
-- ==== Proof.RefTail.lean ====
/-
  The reference program's last stage read at an index: node `i`'s class `j` entry of the result is the log-softmax,
  over the 40 classes, of the node's logits — the concatenation of its two hidden rows against the 256×40 weights, which
  is the first row against the weights' rows 0–127 plus the second row against rows 128–255, plus the bias.
-/
import proofs.«431477_j5471788335195_4_alg».proof.Proof.RefRead
import proofs.«431477_j5471788335195_4_alg».proof.Proof.Spec
import Idealize.ShloMosaic.Lib.Pipeline.Value
import Idealize.ShloMosaic.Lib.ValueIdx
import Idealize.ShloMosaic.PureOps.Ideal.Laws

set_option maxRecDepth 16384

noncomputable section

namespace Cert.ReferenceIdeal.Tail

open Cert.ReferenceIdeal Cert.ReferenceIdeal.Gen Cert.ReferenceIdeal.ReadP
open Idealize.ShloMosaic Idealize.ShloMosaic.TcCoe Idealize.ShloMosaic.ValueIdx

/-- The concatenation of two rows of 128 against the 256 weight rows is the first row against the weights' rows
    0–127 plus the second row against rows 128–255. -/
private theorem concat_dot (h1 h2 : S100000x128.Idx → EReal) (W : S256x40.Idx → EReal) (i : Fin 100000) (q : Fin 40) :
    ∑ k : Fin 256, concatenate S100000x256 1 [⟨S100000x128, h1⟩, ⟨S100000x128, h2⟩]
        concatenates_S100000x128_S100000x128_S100000x256_d1 (lidx_main_v95 (ix2 i q) k) * W (ridx_main_v95 (ix2 i q) k)
      = ∑ k : Fin 128, h1 (ix2 i k) * W (ix2 (⟨k.val, by omega⟩ : Fin 256) q)
        + ∑ k : Fin 128, h2 (ix2 i k) * W (ix2 (⟨128 + k.val, by omega⟩ : Fin 256) q) := by
  show ∑ k : Fin (128 + 128), _ = _
  rw [Fin.sum_univ_add]
  congr 1
  · refine Finset.sum_congr rfl fun k _ => ?_
    congr 1
    · exact concatenate_pair_apply_left 1 h1 h2 concatenates_S100000x128_S100000x128_S100000x256_d1 _ rfl (ix2 i k)
        (fun b => match b with | ⟨0, _⟩ => rfl | ⟨1, _⟩ => rfl)
    · exact congrArg W (funext fun a => Fin.ext (by match a with | ⟨0, _⟩ => rfl | ⟨1, _⟩ => rfl))
  · refine Finset.sum_congr rfl fun k _ => ?_
    congr 1
    · exact concatenate_pair_apply_right 1 h1 h2 concatenates_S100000x128_S100000x128_S100000x256_d1 _ rfl rfl (ix2 i k)
        (fun b => match b with | ⟨0, _⟩ => fun _ => rfl | ⟨1, _⟩ => fun hb => absurd rfl hb)
        (by show k.val + 128 = 128 + k.val; omega)
    · exact congrArg W (funext fun a => Fin.ext (by match a with | ⟨0, _⟩ => rfl | ⟨1, _⟩ => rfl))

/-- A node's logit as the reference computes it: the concatenated row against the weights, plus the broadcast bias. -/
private theorem v98_apply (x0 : (⟨S100000x128, .f32⟩ : BufTy).Contents (Elt Ideal)) (x1 : (⟨S2x1600000, .i32⟩ : BufTy).Contents (Elt Ideal))
    (x2 : (⟨S128x128, .f32⟩ : BufTy).Contents (Elt Ideal)) (x3 : (⟨S128, .f32⟩ : BufTy).Contents (Elt Ideal))
    (x4 : (⟨S128x128, .f32⟩ : BufTy).Contents (Elt Ideal)) (x5 : (⟨S128, .f32⟩ : BufTy).Contents (Elt Ideal))
    (x6 : (⟨S256x40, .f32⟩ : BufTy).Contents (Elt Ideal)) (x7 : (⟨S40, .f32⟩ : BufTy).Contents (Elt Ideal))
    (i : Fin 100000) (q : Fin 40) :
    val_main_v98 (F := Ideal) x0 x1 x2 x3 x4 x5 x6 x7 (ix2 i q)
      = Spec.logit (val_main_v48 (F := Ideal) x0 x1 x2 x3) (val_main_v93 (F := Ideal) x0 x1 x2 x3 x4 x5) x6 x7 i q := by
  rw [val_main_v98_apply, val_main_v95_apply, val_main_v97_apply, val_main_v96_apply]
  unfold val_main_v94 Spec.logit
  generalize val_main_v48 (F := Ideal) x0 x1 x2 x3 = h1
  generalize val_main_v93 (F := Ideal) x0 x1 x2 x3 x4 x5 = h2
  rw [Ideal.addf_def, concat_dot]
  congr 1
  exact congrArg x7 (funext fun a => Fin.ext (by match a with | ⟨0, _⟩ => rfl))

/-- The pattern 0xFF800000 is −∞. -/
private theorem ofBits_neg_inf : Ideal.ofBits .f32 0xFF800000#32 = (⊥ : EReal) := by
  simp [Ideal.ofBits, Ideal.ieee]

/-- The reference's maximum-reduce along the classes, from −∞, at node `i` is the fold of `max` from −∞ over the
    node's row. -/
private theorem reduce_max_apply (y : FVec Ideal S100000x40 .f32) (i : Fin 100000) :
    Host.reduce (FloatOps.maximumf (F := Ideal) (φ := .f32)) y (val_main_call2_cst (F := Ideal))
        reducesTo_S100000x40_S100000_d1 h_S_ (ix1 i)
      = (Finset.univ : Finset (Fin 40)).fold max ⊥ (fun q => y (ix2 i q)) := by
  have hR : S100000x40.Reduces [1] S100000 := by decide
  rw [Host.reduce_eq_fold_single FloatOps.maximumf y _ reducesTo_S100000x40_S100000_d1 hR h_S_]
  have hb : (val_main_call2_cst (F := Ideal)) (Shape.Idx.first h_S_) = (⊥ : EReal) := ofBits_neg_inf
  have hf : (y ∘ hR.lift (ix1 i)) = fun q : Fin 40 => y (ix2 i q) :=
    funext fun q => congrArg y (funext fun c => Fin.ext (by match c with | ⟨0, _⟩ => rfl | ⟨1, _⟩ => rfl))
  rw [hb, hf]
  rfl

/-- The row maximum the reference subtracts at node `i`: the maximum of −∞ and the fold over the node's logits. -/
private theorem v2_apply (x0 : (⟨S100000x128, .f32⟩ : BufTy).Contents (Elt Ideal)) (x1 : (⟨S2x1600000, .i32⟩ : BufTy).Contents (Elt Ideal))
    (x2 : (⟨S128x128, .f32⟩ : BufTy).Contents (Elt Ideal)) (x3 : (⟨S128, .f32⟩ : BufTy).Contents (Elt Ideal))
    (x4 : (⟨S128x128, .f32⟩ : BufTy).Contents (Elt Ideal)) (x5 : (⟨S128, .f32⟩ : BufTy).Contents (Elt Ideal))
    (x6 : (⟨S256x40, .f32⟩ : BufTy).Contents (Elt Ideal)) (x7 : (⟨S40, .f32⟩ : BufTy).Contents (Elt Ideal))
    (i : Fin 100000) :
    val_main_call2_v2 (F := Ideal) x0 x1 x2 x3 x4 x5 x6 x7 (ix1 i)
      = Spec.rowMax (fun q : Fin 40 => val_main_v98 (F := Ideal) x0 x1 x2 x3 x4 x5 x6 x7 (ix2 i q)) := by
  rw [val_main_call2_v2_apply, val_main_call2_v1_apply, val_main_call2_cst_0_apply]
  unfold val_main_call2_v0
  generalize val_main_v98 (F := Ideal) x0 x1 x2 x3 x4 x5 x6 x7 = y
  rw [reduce_max_apply, Ideal.maximumf_def, Ideal.ofBits_def, ofBits_neg_inf]
  rfl

/-- The shifted logit the reference exponentiates and returns the first part of. -/
private theorem v5_apply (x0 : (⟨S100000x128, .f32⟩ : BufTy).Contents (Elt Ideal)) (x1 : (⟨S2x1600000, .i32⟩ : BufTy).Contents (Elt Ideal))
    (x2 : (⟨S128x128, .f32⟩ : BufTy).Contents (Elt Ideal)) (x3 : (⟨S128, .f32⟩ : BufTy).Contents (Elt Ideal))
    (x4 : (⟨S128x128, .f32⟩ : BufTy).Contents (Elt Ideal)) (x5 : (⟨S128, .f32⟩ : BufTy).Contents (Elt Ideal))
    (x6 : (⟨S256x40, .f32⟩ : BufTy).Contents (Elt Ideal)) (x7 : (⟨S40, .f32⟩ : BufTy).Contents (Elt Ideal))
    (i : Fin 100000) (q : Fin 40) :
    val_main_call2_v5 (F := Ideal) x0 x1 x2 x3 x4 x5 x6 x7 (ix2 i q)
      = val_main_v98 (F := Ideal) x0 x1 x2 x3 x4 x5 x6 x7 (ix2 i q)
        - Spec.rowMax (fun q' : Fin 40 => val_main_v98 (F := Ideal) x0 x1 x2 x3 x4 x5 x6 x7 (ix2 i q')) := by
  rw [val_main_call2_v5_apply, val_main_call2_v4_apply, val_main_call2_v3_apply, Ideal.subf_def]
  have hi : idx_main_call2_v3 (idx_main_call2_v4 (ix2 i q)) = ix1 i :=
    funext fun a => Fin.ext (by match a with | ⟨0, _⟩ => rfl)
  rw [hi, v2_apply]

theorem result_apply (x0 : (⟨S100000x128, .f32⟩ : BufTy).Contents (Elt Ideal)) (x1 : (⟨S2x1600000, .i32⟩ : BufTy).Contents (Elt Ideal))
    (x2 : (⟨S128x128, .f32⟩ : BufTy).Contents (Elt Ideal)) (x3 : (⟨S128, .f32⟩ : BufTy).Contents (Elt Ideal))
    (x4 : (⟨S128x128, .f32⟩ : BufTy).Contents (Elt Ideal)) (x5 : (⟨S128, .f32⟩ : BufTy).Contents (Elt Ideal))
    (x6 : (⟨S256x40, .f32⟩ : BufTy).Contents (Elt Ideal)) (x7 : (⟨S40, .f32⟩ : BufTy).Contents (Elt Ideal))
    (i : Fin 100000) (j : Fin 40) :
    val_main_v99 (F := Ideal) x0 x1 x2 x3 x4 x5 x6 x7 (ix2 i j)
      = Spec.lsm (fun q : Fin 40 => Spec.logit (val_main_v48 (F := Ideal) x0 x1 x2 x3) (val_main_v93 (F := Ideal) x0 x1 x2 x3 x4 x5) x6 x7 i q) j := by
  -- the logits of node `i`, as the reference computes them
  have hl : (fun q : Fin 40 => Spec.logit (val_main_v48 (F := Ideal) x0 x1 x2 x3) (val_main_v93 (F := Ideal) x0 x1 x2 x3 x4 x5) x6 x7 i q)
      = fun q : Fin 40 => val_main_v98 (F := Ideal) x0 x1 x2 x3 x4 x5 x6 x7 (ix2 i q) :=
    funext fun q => (v98_apply x0 x1 x2 x3 x4 x5 x6 x7 i q).symm
  rw [hl]
  -- the exponentials the reference sums at node `i`
  have hs : ∀ k : Fin 40,
      val_main_call2_v6 (F := Ideal) x0 x1 x2 x3 x4 x5 x6 x7
          (idx_main_call2_v7 (idx_main_call2_v8 (idx_main_call2_v10 (ix2 i j))) k)
        = Ideal.exp (val_main_v98 (F := Ideal) x0 x1 x2 x3 x4 x5 x6 x7 (ix2 i k)
            - Spec.rowMax (fun q' : Fin 40 => val_main_v98 (F := Ideal) x0 x1 x2 x3 x4 x5 x6 x7 (ix2 i q'))) := fun k => by
    have hi : idx_main_call2_v7 (idx_main_call2_v8 (idx_main_call2_v10 (ix2 i j))) k = ix2 i k :=
      funext fun a => Fin.ext (by match a with | ⟨0, _⟩ => rfl | ⟨1, _⟩ => rfl)
    rw [hi, val_main_call2_v6_apply, Ideal.hostUnary_exp_def, v5_apply]
  rw [val_main_v99_apply, val_main_call2_v10_apply, val_main_call2_v9_apply, val_main_call2_v8_apply,
    val_main_call2_v7_apply, val_main_call2_cst_1_apply, Ideal.subf_def, Ideal.hostUnary_log_def, v5_apply,
    Finset.sum_congr rfl fun k _ => hs k, Ideal.ofBits_def, Ideal.ofBits_zero_f32, zero_add]
  rfl

end Cert.ReferenceIdeal.Tail

end
-- ==== Proof.lean ====
/-
  A two-layer graph convolution network with a linear classifier and a log-softmax, as a kernel program and as its jnp
  reference: equal results over the extended reals.

  Both programs compute, for 100000 nodes with 128 features and 1600000 edges,
      h1 = relu (conv (x · W1)),   h2 = relu (conv (h1 · W2)),   out = log_softmax ([h1 | h2] · Wlin + blin),
  where conv is the normalized neighbourhood sum (degrees by a scatter-add over the edges' targets, their inverse square
  roots gathered at both ends of each edge, the gathered rows scaled and scatter-added, the self-loop term, the bias).
  The kernel program takes the two products x · W1 and h1 · W2 in a kernel region each (row blocks of 5000 nodes) and the
  classifier with its log-softmax in a third; everything between the regions is, operation for operation, the host
  program the reference runs. At the ideal values a region's block product is the host's product of the same operands,
  so the two hidden layers are the reference's own stages of the arguments. The last region lays the 40 classes out on
  128 lanes: the weights' two halves and the bias padded with zeros, the 88 extra lanes of the logits then filled with a
  constant the certificate names −∞; the maximum and the sum of exponentials over the 128 lanes are those over the 40
  classes (−∞ is neutral for max, and exp (−∞ − M) = 0), and [h1 | h2] · Wlin is h1 against the weights' rows 0–127 plus
  h2 against rows 128–255. No law used here needs the inputs finite: the precondition is not opened.
-/
import proofs.«431477_j5471788335195_4_alg».proof.Defs
import proofs.«431477_j5471788335195_4_alg».proof.Proof.Gen.Kernel
import proofs.«431477_j5471788335195_4_alg».proof.Proof.Gen.Kernel.Frame
import proofs.«431477_j5471788335195_4_alg».proof.Proof.Gen.KernelIdeal
import proofs.«431477_j5471788335195_4_alg».proof.Proof.Gen.KernelIdeal.Frame
import proofs.«431477_j5471788335195_4_alg».proof.Proof.Gen.ReferenceIdeal
import proofs.«431477_j5471788335195_4_alg».proof.Proof.Gen.Pre_finite_inputs
import proofs.«431477_j5471788335195_4_alg».proof.Proof.Spec
import proofs.«431477_j5471788335195_4_alg».proof.Proof.KernelRun
import proofs.«431477_j5471788335195_4_alg».proof.Proof.HostChain
import proofs.«431477_j5471788335195_4_alg».proof.Proof.RefRun
import proofs.«431477_j5471788335195_4_alg».proof.Proof.RefStages
import proofs.«431477_j5471788335195_4_alg».proof.Proof.RefTail
import Idealize.ShloMosaic.Adequacy
import Idealize.ShloMosaic.Init

set_option maxRecDepth 16384

noncomputable section

namespace Cert.Proof

open Idealize.ShloMosaic Idealize.ShloMosaic.TcCoe Idealize.SL.Sem Idealize.ShloMosaic.ValueIdx

/-! ## The two results are one array -/

/-- On the kernel's 128-lane layout, lane `q < 40` of a node's logits is the reference's logit for class `q`. -/
theorem plogit_eq (h1 h2 : (⟨2, ![100000, 128]⟩ : Shape).Idx → EReal) (W : (⟨Cert.KernelIdeal.S256x40, .f32⟩ : BufTy).Contents (Elt Ideal))
    (b : (⟨Cert.KernelIdeal.S40, .f32⟩ : BufTy).Contents (Elt Ideal)) (i : Fin 100000) (q : Fin 40) :
    Cert.Spec.plogit h1 h2 (Cert.KernelIdeal.Pads.w1pad (F := Ideal) W) (Cert.KernelIdeal.Pads.w2pad (F := Ideal) W)
        (Cert.KernelIdeal.Pads.bpad (F := Ideal) b) i ⟨q.val, by omega⟩
      = Cert.Spec.logit h1 h2 W b i q := by
  unfold Cert.Spec.plogit Cert.Spec.logit
  rw [Cert.KernelIdeal.Pads.bpad_apply]
  refine congrArg (· + b (ix1 q)) ?_
  refine congrArg₂ (· + ·) (Finset.sum_congr rfl fun k _ => ?_) (Finset.sum_congr rfl fun k _ => ?_)
  · rw [Cert.KernelIdeal.Pads.w1pad_apply]
  · rw [Cert.KernelIdeal.Pads.w2pad_apply]

/-- The kernel's result (the fold of its segments at its result buffer) is the reference's last stage of the same
    arguments: entry (i, j) of both is the log-softmax over the 40 classes of node `i`'s logits, at class `j`. -/
theorem results_eq (m : (ℓ : Loc Cert.KernelIdeal.nD Cert.KernelIdeal.τ Cert.KernelIdeal.sig) → Buf (Elt Ideal) ℓ)
    (ρ : Dev Cert.KernelIdeal.nD → PrngReg) (c : Dev Cert.KernelIdeal.nD) :
    Cert.ReferenceIdeal.ReadP.val_main_v99 (F := Ideal)
        (m ((c : Thread Cert.KernelIdeal.nD Cert.KernelIdeal.τ).loc Cert.KernelIdeal.main_arg0))
        (m ((c : Thread Cert.KernelIdeal.nD Cert.KernelIdeal.τ).loc Cert.KernelIdeal.main_arg1))
        (m ((c : Thread Cert.KernelIdeal.nD Cert.KernelIdeal.τ).loc Cert.KernelIdeal.main_arg2))
        (m ((c : Thread Cert.KernelIdeal.nD Cert.KernelIdeal.τ).loc Cert.KernelIdeal.main_arg3))
        (m ((c : Thread Cert.KernelIdeal.nD Cert.KernelIdeal.τ).loc Cert.KernelIdeal.main_arg4))
        (m ((c : Thread Cert.KernelIdeal.nD Cert.KernelIdeal.τ).loc Cert.KernelIdeal.main_arg5))
        (m ((c : Thread Cert.KernelIdeal.nD Cert.KernelIdeal.τ).loc Cert.KernelIdeal.main_arg6))
        (m ((c : Thread Cert.KernelIdeal.nD Cert.KernelIdeal.τ).loc Cert.KernelIdeal.main_arg7))
      = Cert.KernelIdeal.Gen.W15 m ρ c (Proc.devRef .tc Cert.KernelIdeal.main_v101) := by
  rw [Cert.KernelIdeal.HostChain.result]
  funext y
  obtain ⟨i, j, rfl⟩ : ∃ (i : Fin 100000) (j : Fin 40), y = ix2 i j := ⟨y 0, y 1, eq_ix2 y⟩
  rw [Cert.ReferenceIdeal.Tail.result_apply]
  rw [extractStridedSlice_apply (k := ix2 (n0 := 100000) (n1 := 128) i ⟨j.val, by omega⟩)
    (hk := fun a => by match a with | ⟨0, _⟩ => simp | ⟨1, _⟩ => simp)]
  unfold Cert.KernelIdeal.HeadValue.headG
  refine ((Cert.Spec.lsm_pad _ j).trans ?_).symm
  refine congrArg (fun a => Cert.Spec.lsm a j) (funext fun q => ?_)
  exact plogit_eq _ _ _ _ i q

/-! ## The claims -/

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.ValueP.run (F := Ideal) m ρ)

/-- The one constant the idealized kernel names: the finite fill of the 88 extra lanes denotes −∞. -/
theorem preserves : Cert.preserves_Kernel_KernelIdeal :=
  IdealRules.named_const.statement Cert.KernelIdeal.κ "neg_big" .f32 0xFF333332#32 ⊥ rfl

/-- From memories agreeing on the arguments both programs end with one result: the kernel's run leaves its result buffer
    at the fold of its segments, the reference's at the fold of its operations, and the two folds are one array. -/
theorem algebraic : Cert.algebraic_KernelIdeal_ReferenceIdeal := by
  intro m ρ m' ρ' _ hagree
  refine ⟨fun c => Cert.KernelIdeal.Gen.W15 m ρ c (Proc.devRef .tc Cert.KernelIdeal.main_v101),
    Cert.KernelIdeal.RunResult.run_result (F := Ideal) m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.Stages.fold_result, (hagree c).1, (hagree c).2.1, (hagree c).2.2.1, (hagree c).2.2.2.1,
    (hagree c).2.2.2.2.1, (hagree c).2.2.2.2.2.1, (hagree c).2.2.2.2.2.2.1, (hagree c).2.2.2.2.2.2.2]
  exact results_eq m ρ c

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
